-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128000 : Shape := ⟨2, ![1024, 128000]⟩
abbrev S1024 : Shape := ⟨1, ![1024]⟩
abbrev S_ : Shape := ⟨0, ![]⟩

class Facts : Prop where
  bcast_S_S1024x128000 : S_.BroadcastsInDim S1024x128000 (![] : Fin 0 → Fin S1024x128000.rank)
  reducesTo_S1024x128000_S_d0_1 : S1024x128000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x128000 .f32) (main_arg1 : IVec S1024 32) : IVec S_ 1 :=
  let main_v0 : FVec F S1024x128000 .f32 := Host.absf main_arg0
  let main_cst : FVec F S_ .f32 := constant S_ .f32 0x7F800000#32
  let main_v1 : FVec F S1024x128000 .f32 := broadcastInDim S1024x128000 ![] bcast_S_S1024x128000 main_cst
  let main_v2 : IVec S1024x128000 1 := cmpf .olt main_v0 main_v1
  let main_c : IVec S_ 1 := constantI S_ 1 1#1
  let main_v3 : IVec S_ 1 := (fun x v => Host.reduce IntOp.andi x v reducesTo_S1024x128000_S_d0_1 h_S_) main_v2 main_c
  let main_c_0 : IVec S_ 32 := constantI S_ 32 4294839296#32
  let main_v4 : IVec S1024 32 := broadcastInDim S1024 ![] bcast_S_S1024 main_c_0
  let main_v5 : IVec S1024 1 := cmpi .sge main_arg1 main_v4
  let main_c_1 : IVec S_ 1 := constantI S_ 1 1#1
  let main_v6 : IVec S_ 1 := (fun x v => Host.reduce IntOp.andi x v reducesTo_S1024_S_d0 h_S_) main_v5 main_c_1
  let main_v7 : IVec S_ 1 := andi main_v3 main_v6
  let main_c_2 : IVec S_ 32 := constantI S_ 32 128000#32
  let main_v8 : IVec S1024 32 := broadcastInDim S1024 ![] bcast_S_S1024 main_c_2
  let main_v9 : IVec S1024 1 := cmpi .slt main_arg1 main_v8
  let main_c_3 : IVec S_ 1 := constantI S_ 1 1#1
  let main_v10 : IVec S_ 1 := (fun x v => Host.reduce IntOp.andi x v reducesTo_S1024_S_d0 h_S_) main_v9 main_c_3
  let main_v11 : IVec S_ 1 := andi main_v7 main_v10
  main_v11
-- ==== Kernel.lean ====
abbrev S1024x128000 : Shape := ⟨2, ![1024, 128000]⟩
abbrev S1024 : Shape := ⟨1, ![1024]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩
abbrev S256x16000 : Shape := ⟨2, ![256, 16000]⟩
abbrev S256x1 : Shape := ⟨2, ![256, 1]⟩
abbrev S256 : Shape := ⟨1, ![256]⟩

abbrev nBuf : Space → Nat
  | .hbm => 30
  | .vmem => 8
  | .smem => 0
  | _ => 0

abbrev bufTy : (tb : Table) → Fin (tcTables nBuf tb) → BufTy
  | .hbm, ⟨0, _⟩ => ⟨S1024x128000, .f32⟩
  | .hbm, ⟨1, _⟩ => ⟨S1024, .i32⟩
  | .hbm, ⟨2, _⟩ => ⟨S1024x1, .i32⟩
  | .hbm, ⟨3, _⟩ => ⟨S_, .i32⟩
  | .hbm, ⟨4, _⟩ => ⟨S1024x1, .i32⟩
  | .hbm, ⟨5, _⟩ => ⟨S1024x1, .i1⟩
  | .hbm, ⟨6, _⟩ => ⟨S_, .i32⟩
  | .hbm, ⟨7, _⟩ => ⟨S1024x1, .i32⟩
  | .hbm, ⟨8, _⟩ => ⟨S1024x1, .i32⟩
  | .hbm, ⟨9, _⟩ => ⟨S1024x1, .i32⟩
  | .hbm, ⟨10, _⟩ => ⟨S1024x1x1, .i32⟩
  | .hbm, ⟨11, _⟩ => ⟨S1, .i32⟩
  | .hbm, ⟨12, _⟩ => ⟨S_, .i32⟩
  | .hbm, ⟨13, _⟩ => ⟨S1024x1x1, .i32⟩
  | .hbm, ⟨14, _⟩ => ⟨S1024x1x1, .i1⟩
  | .hbm, ⟨15, _⟩ => ⟨S1x1x1, .i32⟩
  | .hbm, ⟨16, _⟩ => ⟨S1024x1x1, .i32⟩
  | .hbm, ⟨17, _⟩ => ⟨S1024x1x1, .i1⟩
  | .hbm, ⟨18, _⟩ => ⟨S1024x1x1, .i1⟩
  | .hbm, ⟨19, _⟩ => ⟨S_, .i1⟩
  | .hbm, ⟨20, _⟩ => ⟨S1024x1, .i1⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S256x16000, .f32⟩
  | .local _ .vmem, ⟨1, _⟩ => ⟨S256x16000, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | _, _ => ⟨S1024x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1024_S1024x1 : S1024.ShapeCasts S1024x1
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x16000_S256x16000_0_0 : ∀ a, (![0, 0] : Fin 2 → Nat) a + S256x16000.size a ≤ S256x16000.size a
  h_S256x16000 : 0 < S256x16000.numel
  reduces_S256x16000_S256 : S256x16000.Reduces [1] S256
  shapeCasts_S256_S256x1 : S256.ShapeCasts S256x1
  broadcasts_S256x1_S256x16000 : S256x1.Broadcasts S256x16000
  reducesTo_S1024x1_S_d0_1 : S1024x1.ReducesTo [0, 1] S_
  gather_S1024x128000_S1024x1x1_S1024x1_n_1_0_0_1_2_11_wf : GatherDims.WF S1024x128000 S1024x1x1 S1024x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16000.size a ≤ S1024x128000.size a
  hwx0_0 : ∀ i : grid0.Coords, EltTy.bits .f32 = 32 ∨ (Rect.block (s := S1024x128000) S256x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1024x1.size a
  hwx0_1 : ∀ i : grid0.Coords, EltTy.bits .f32 = 32 ∨ (Rect.block (s := S1024x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S1024x1.size a
  hwx0_2 : ∀ i : grid0.Coords, EltTy.bits .f32 = 32 ∨ (Rect.block (s := S1024x1) S256x1.size (cc0_transform_2 i) (hinb0_2 i)).WholeWords (EltTy.packing .f32)

variable [Facts₀]

def gather_S1024x128000_S1024x1x1_S1024x1_n_1_0_0_1_2_11 : GatherDims S1024x128000 S1024x1x1 S1024x1 where
  offsetDims := []
  collapsedSliceDims := [1]
  operandBatchingDims := [0]
  startIndicesBatchingDims := [0]
  startIndexMap := [1]
  indexVectorDim := 2
  sliceSizes := ![1, 1]
  wf := gather_S1024x128000_S1024x1x1_S1024x1_n_1_0_0_1_2_11_wf

abbrev win0_0 : Pipeline.Window sig grid0 :=
  Pipeline.Window.ofSpec (Memref.whole main_arg0) S256x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x128000 : Shape := ⟨2, ![1024, 128000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 38
  | .vmem => 0
  | .smem => 0
  | _ => 0

abbrev bufTy : (tb : Table) → Fin (tcTables nBuf tb) → BufTy
  | .hbm, ⟨0, _⟩ => ⟨S1024x128000, .f32⟩
  | .hbm, ⟨1, _⟩ => ⟨S1024, .i32⟩
  | .hbm, ⟨2, _⟩ => ⟨S_, .f32⟩
  | .hbm, ⟨3, _⟩ => ⟨S1024, .f32⟩
  | .hbm, ⟨4, _⟩ => ⟨S1024x1, .f32⟩
  | .hbm, ⟨5, _⟩ => ⟨S1024x128000, .f32⟩
  | .hbm, ⟨6, _⟩ => ⟨S1024x128000, .f32⟩
  | .hbm, ⟨7, _⟩ => ⟨S1024x128000, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x128000, .f32⟩
  | .hbm, ⟨12, _⟩ => ⟨S1024x128000, .f32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x1, .i32⟩
  | .hbm, ⟨30, _⟩ => ⟨S1024x2, .i32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S1024x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S1024x128000_S1024_d1 : S1024x128000.ReducesTo [1] S1024
  h_S_ : 0 < S_.numel
  bcast_S1024_S1024x1_0 : S1024.BroadcastsInDim S1024x1 (![0] : Fin 1 → Fin S1024x1.rank)
  bcast_S1024x1_S1024x128000_0_1 : S1024x1.BroadcastsInDim S1024x128000 (![0, 1] : Fin 2 → Fin S1024x128000.rank)
  bcast_S_S1024 : S_.BroadcastsInDim S1024 (![] : Fin 0 → Fin S1024.rank)
  concatenates_S1024x1_S1024x1_S1024x2_d1 : Shape.Concatenates [S1024x1, S1024x1] S1024x2 1
  reducesTo_S1024_S_d0 : S1024.ReducesTo [0] S_
  gather_S1024x128000_S1024x2_S1024_n_01_n_n_01_1_11_wf : GatherDims.WF S1024x128000 S1024x2 S1024 [] [0, 1] [] [0, 1] [] 1 ![1, 1]

variable [Facts₀]

def gather_S1024x128000_S1024x2_S1024_n_01_n_n_01_1_11 : GatherDims S1024x128000 S1024x2 S1024 where
  offsetDims := []
  collapsedSliceDims := [0, 1]
  operandBatchingDims := []
  startIndicesBatchingDims := []
  startIndexMap := [0, 1]
  indexVectorDim := 1
  sliceSizes := ![1, 1]
  wf := gather_S1024x128000_S1024x2_S1024_n_01_n_n_01_1_11_wf

class Facts : Prop extends Facts₀ where

variable [Facts]
-- ==== Proof.Spec.lean ====
/-
  The value both programs compute, stated once over the reals.

  A row of finite logits is a row of real numbers `x`.  Softmax cross-entropy at the label `l` is
  `log (∑ q, exp (x q)) - x l`; the result is the mean of it over the 1024 rows.  A label word is first wrapped the
  way both programs wrap it (a negative word has the vocabulary size 128000 added), and for a word in
  `[-128000, 128000)` the wrapped word is a column of the row.
-/
import Idealize.ShloMosaic.PureOps.Ideal
import Idealize.ShloMosaic.Lib.ValueIdx

noncomputable section

open scoped BigOperators

namespace Cert.Xent

open Idealize.ShloMosaic Idealize.ShloMosaic.ValueIdx

/-- The logits' shape and the labels' shape. -/
abbrev SX : Shape := ⟨2, ![1024, 128000]⟩
abbrev SL : Shape := ⟨1, ![1024]⟩

/-- Entry `(i, q)` of the logits as a real number (zero outside the array). -/
def realAt (X : FVec Ideal SX .f32) (i q : ℕ) : ℝ :=
  if h : i < 1024 ∧ q < 128000 then (X (ix2 (⟨i, h.1⟩ : Fin 1024) (⟨q, h.2⟩ : Fin 128000))).toReal else 0

/-- A label word wrapped into the vocabulary: a negative word has 128000 added. -/
def wrapWord (w : BitVec 32) : BitVec 32 := if w.toInt < 0 then w + 128000#32 else w

/-- Row `i`'s label as a column number (zero outside the array). -/
def labAt (Lb : IVec SL 32) (i : ℕ) : ℕ :=
  if h : i < 1024 then (wrapWord (Lb (ix1 (⟨i, h⟩ : Fin 1024)))).toNat else 0

/-- Cross-entropy of one real row at column `l`: the log of the sum of exponentials, minus the entry at `l`. -/
def rowLoss (x : ℕ → ℝ) (l : ℕ) : ℝ := Real.log (∑ q ∈ Finset.range 128000, Real.exp (x q)) - x l

/-- The mean of the rows' cross-entropies. -/
def meanLoss (X : FVec Ideal SX .f32) (Lb : IVec SL 32) : EReal :=
  ((((∑ i ∈ Finset.range 1024, rowLoss (realAt X i) (labAt Lb i)) / 1024 : ℝ)) : EReal)

/-- What the precondition says of the inputs: every logit is a real number, every label word lies in
    `[-128000, 128000)`. -/
structure Admissible (X : FVec Ideal SX .f32) (Lb : IVec SL 32) : Prop where
  real : ∀ (i : Fin 1024) (q : Fin 128000), X (ix2 i q) = ((realAt X i.val q.val : ℝ) : EReal)
  lo : ∀ i : Fin 1024, -128000 ≤ (Lb (ix1 i)).toInt
  hi : ∀ i : Fin 1024, (Lb (ix1 i)).toInt < 128000

/-- Under the label range the wrapped word is a column. -/
theorem labAt_lt {X : FVec Ideal SX .f32} {Lb : IVec SL 32} (h : Admissible X Lb) (i : ℕ) : labAt Lb i < 128000 := by
  unfold labAt
  split
  · rename_i hi
    have h1 := h.lo ⟨i, hi⟩
    have h2 := h.hi ⟨i, hi⟩
    unfold wrapWord
    split
    · rename_i hneg
      rw [BitVec.toNat_add]
      have : (Lb (ix1 (⟨i, hi⟩ : Fin 1024))).toNat = ((Lb (ix1 (⟨i, hi⟩ : Fin 1024))).toInt + 4294967296).toNat := by
        rw [BitVec.toInt_eq_toNat_cond] at hneg ⊢
        split at hneg <;> omega
      rw [this]
      show ((_ : ℤ).toNat + 128000) % 4294967296 < 128000
      omega
    · rename_i hnn
      have : ((Lb (ix1 (⟨i, hi⟩ : Fin 1024))).toNat : ℤ) = (Lb (ix1 (⟨i, hi⟩ : Fin 1024))).toInt := by
        rw [BitVec.toInt_eq_toNat_cond] at hnn ⊢
        split <;> omega
      omega
  · norm_num

end Cert.Xent

end
-- ==== Proof.PreDecode.lean ====
/-
  The precondition, read: every logit is a real number and every label word lies in `[-128000, 128000)`.
-/
import proofs.«408263_j3899830304796_2_alg».proof.Pre_finite_inputs
import proofs.«408263_j3899830304796_2_alg».proof.Proof.Gen.Pre_finite_inputs
import proofs.«408263_j3899830304796_2_alg».proof.Proof.Spec
import Idealize.ShloMosaic.Lib.ReduceAll
import Idealize.ShloMosaic.Lib.StableHlo.Predicate
import Idealize.ShloMosaic.PureOps.Ideal.Laws

noncomputable section

namespace Cert.Xent

open Idealize.ShloMosaic Idealize.ShloMosaic.ValueIdx

private instance : Subsingleton Cert.Pre_finite_inputs.S_.Idx := ⟨fun a b => funext fun d => d.elim0⟩

/-- The f32 pattern of `+∞` denotes `⊤`. -/
private theorem ofBits_inf : Ideal.ofBits .f32 0x7F800000#32 = (⊤ : EReal) := by
  simp [Ideal.ofBits, Ideal.ieee]

/-- An extended real whose absolute value `max x (-x)` is below `⊤` is a real number. -/
private theorem eq_coe_of_abs_lt_top (x : EReal) (h : max x (-x) < ⊤) : x = ((x.toReal : ℝ) : EReal) := by
  have h1 : x ≠ ⊤ := by rintro rfl; simp at h
  have h2 : x ≠ ⊥ := by rintro rfl; simp at h
  exact (EReal.coe_toReal h1 h2).symm

/-- At in-range arguments `realAt` is the real part of the entry. -/
private theorem realAt_fin (X : FVec Ideal SX .f32) (i : Fin 1024) (q : Fin 128000) :
    realAt X i.val q.val = (X (ix2 i q)).toReal := by
  unfold realAt
  rw [dif_pos ⟨i.isLt, q.isLt⟩]

/-- The printed precondition, all ones, says the inputs are admissible. -/
theorem admissible_of_pre (X : FVec Ideal SX .f32) (Lb : IVec SL 32)
    (h : Cert.Pre_finite_inputs.fn (F := Ideal) X Lb = fun _ => 1#1) : Admissible X Lb := by
  -- the one element of the result: a conjunction of three `all`s
  have h0 := congrFun h ValueIdx.ix0
  dsimp only [Cert.Pre_finite_inputs.fn] at h0
  obtain ⟨h01, hC⟩ := IntOp.andi_eq_one.1 h0
  obtain ⟨hA, hB⟩ := IntOp.andi_eq_one.1 h01
  refine ⟨fun i q => ?_, fun i => ?_, fun i => ?_⟩
  · -- `|x| < +∞` at `(i, q)`: the entry is neither infinity, so it is its own real part
    have e := Host.reduce_andi_all _ _ _ _ _ hA (ix2 i q)
    change Ideal.cmp .olt (max (X (ix2 i q)) (-(X (ix2 i q)))) (Ideal.ofBits .f32 0x7F800000#32) = 1#1 at e
    rw [ofBits_inf] at e
    have e' : max (X (ix2 i q)) (-(X (ix2 i q))) < ⊤ := by
      simpa [Ideal.cmp, StableHlo.Predicate.ofBool_eq_one_iff] using e
    rw [realAt_fin]
    exact eq_coe_of_abs_lt_top _ e'
  · -- `-128000 ≤ label`, compared signed
    have e := Host.reduce_andi_all _ _ _ _ _ hB (ix1 i)
    change IntOp.cmpi .sge (Lb (ix1 i)) 4294839296#32 = 1#1 at e
    rw [IntOp.cmpi_sge] at e
    have hc : (4294839296#32 : BitVec 32).toInt = -128000 := by decide
    omega
  · -- `label < 128000`, compared signed
    have e := Host.reduce_andi_all _ _ _ _ _ hC (ix1 i)
    change IntOp.cmpi .slt (Lb (ix1 i)) 128000#32 = 1#1 at e
    rw [IntOp.cmpi_slt] at e
    have hc : (128000#32 : BitVec 32).toInt = 128000 := by decide
    omega

end Cert.Xent

end
-- ==== Proof.Pieces.lean ====
/-
  What each control case of the body leaves behind, as the body's pure values.

  At the first column block of a row block (case A) the running maximum and sum are reset and then updated from the
  reset values; at the other column blocks (cases B and C) they are updated from what the point before left; at the
  last column block (case C) the output block is the closing value of the updated maximum, the label logits and the
  updated sum.
-/
import proofs.«408263_j3899830304796_2_alg».proof.Proof.Gen.KernelIdeal.Frame
import Idealize.ShloMosaic.Lib.Pipeline.Value
import Idealize.ShloMosaic.Lib.Tactic

noncomputable section

namespace Cert.KernelIdeal.XentPieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- Case A, running maximum: updated from the reset value. -/
theorem max_A (c : Dev nD) (i : grid0.Coords) (arg2 : Memref sig .tc .vmem S256x16000 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : cond0_0 i) (hc1 : ¬cond0_1 i) (x0 : Vec F S256x16000 .f32) (x1 : Vec F S256x1 .f32) :
    sout0_A_0 c i arg2 harg2 arg3 harg3 arg4 harg4 arg5 harg5 arg6 harg6 hc0 hc1 x0 x1 = k0_pay5 x0 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  -- two stores cover the buffer, the reset and then the update; the later one decides, and its loads of the
  -- maximum read the reset value back
  rw [View.canon_cons_unit_zero (S := S256x1) hz]
  simp only [View.readAt_eq_ld, harg2.read_unread, View.ld_unit_zero (S := S256x16000) hz, View.readCov_unit_zero (S := S256x1) _ hz]

/-- Case A, running sum: updated from the reset values. -/
theorem sum_A (c : Dev nD) (i : grid0.Coords) (arg2 : Memref sig .tc .vmem S256x16000 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : cond0_0 i) (hc1 : ¬cond0_1 i) (x0 : Vec F S256x16000 .f32) (x1 : Vec F S256x1 .f32) :
    sout0_A_1 c i arg2 harg2 arg3 harg3 arg4 harg4 arg5 harg5 arg6 harg6 hc0 hc1 x0 x1 = k0_pay4 x0 (k0_pay1 (F := F)) (k0_pay1 (F := F)) (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  -- the later of the two covering stores decides; its loads of the maximum and of the sum read the reset values back
  rw [View.canon_cons_unit_zero (S := S256x1) hz]
  simp only [View.readAt_eq_ld, harg2.read_unread, View.ld_unit_zero (S := S256x16000) hz, View.readCov_unit_zero (S := S256x1) _ hz]

/-- Case B, running maximum: updated from what the point before left. -/
theorem max_B (c : Dev nD) (i : grid0.Coords) (arg2 : Memref sig .tc .vmem S256x16000 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : ¬cond0_1 i) (x0 : Vec F S256x16000 .f32) (x1 : Vec F S256x1 .f32) (xs0 xs1 : Vec F S256x1 .f32) :
    sout0_B_0 c i arg2 harg2 arg3 harg3 arg4 harg4 arg5 harg5 arg6 harg6 hc0 hc1 x0 x1 xs0 xs1 = k0_pay5 x0 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  -- one covering store, whose loads read the whole block of logits and the maximum left before
  rw [View.canon_unit_zero hz]
  simp only [View.readAt_eq_ld, harg2.read_unread, harg5.read_unread, View.ld_unit_zero (S := S256x1) hz, View.ld_unit_zero (S := S256x16000) hz]

/-- Case B, running sum. -/
theorem sum_B (c : Dev nD) (i : grid0.Coords) (arg2 : Memref sig .tc .vmem S256x16000 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : ¬cond0_1 i) (x0 : Vec F S256x16000 .f32) (x1 : Vec F S256x1 .f32) (xs0 xs1 : Vec F S256x1 .f32) :
    sout0_B_1 c i arg2 harg2 arg3 harg3 arg4 harg4 arg5 harg5 arg6 harg6 hc0 hc1 x0 x1 xs0 xs1 = k0_pay4 x0 xs0 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  -- one covering store, whose loads read the whole block of logits, the maximum (twice) and the sum left before
  rw [View.canon_unit_zero hz]
  simp only [View.readAt_eq_ld, harg2.read_unread, harg5.read_unread, harg6.read_unread, View.ld_unit_zero (S := S256x1) hz, View.ld_unit_zero (S := S256x16000) hz]

/-- Case C, running maximum. -/
theorem max_C (c : Dev nD) (i : grid0.Coords) (arg2 : Memref sig .tc .vmem S256x16000 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i) (x0 : Vec F S256x16000 .f32) (x1 : Vec F S256x1 .f32) (xs0 xs1 : Vec F S256x1 .f32) :
    sout0_C_0 c i arg2 harg2 arg3 harg3 arg4 harg4 arg5 harg5 arg6 harg6 hc0 hc1 x0 x1 xs0 xs1 = k0_pay5 x0 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  -- one covering store, as at the inner column blocks
  rw [View.canon_unit_zero hz]
  simp only [View.readAt_eq_ld, harg2.read_unread, harg5.read_unread, View.ld_unit_zero (S := S256x1) hz, View.ld_unit_zero (S := S256x16000) hz]

/-- Case C, running sum. -/
theorem sum_C (c : Dev nD) (i : grid0.Coords) (arg2 : Memref sig .tc .vmem S256x16000 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i) (x0 : Vec F S256x16000 .f32) (x1 : Vec F S256x1 .f32) (xs0 xs1 : Vec F S256x1 .f32) :
    sout0_C_1 c i arg2 harg2 arg3 harg3 arg4 harg4 arg5 harg5 arg6 harg6 hc0 hc1 x0 x1 xs0 xs1 = k0_pay4 x0 xs0 xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  -- one covering store, as at the inner column blocks
  rw [View.canon_unit_zero hz]
  simp only [View.readAt_eq_ld, harg2.read_unread, harg5.read_unread, harg6.read_unread, View.ld_unit_zero (S := S256x1) hz, View.ld_unit_zero (S := S256x16000) hz]

/-- Case C, the output block: the closing value of the updated maximum, the label logits and the updated sum. -/
theorem out_C (c : Dev nD) (i : grid0.Coords) (arg2 : Memref sig .tc .vmem S256x16000 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i) (x0 : Vec F S256x16000 .f32) (x1 : Vec F S256x1 .f32) (xs0 xs1 : Vec F S256x1 .f32) :
    out0_C_2 c i arg2 harg2 arg3 harg3 arg4 harg4 arg5 harg5 arg6 harg6 hc0 hc1 x0 x1 xs0 xs1 = k0_pay6 (k0_pay5 x0 xs0) x1 (k0_pay4 x0 xs0 xs0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  -- one covering store; its loads of the two scratch buffers read back this point's own updates, and the labels'
  -- logits are loaded whole
  rw [View.canon_unit_zero hz]
  simp only [View.readAt_eq_ld, harg2.read_unread, harg3.read_unread, harg5.read_unread, harg6.read_unread,
    View.ld_unit_zero (S := S256x1) hz, View.ld_unit_zero (S := S256x16000) hz, View.readCov_unit_zero (S := S256x1) _ hz]

end Cert.KernelIdeal.XentPieces

end
-- ==== Proof.Online.lean ====
/-
  The arithmetic of a running softmax, over the reals.

  For a real row `x` and a shift `s`, `expSum x n s` is the sum of `exp (x q - s)` over the first `n` entries.
  Changing the shift multiplies it by `exp (s - s')`; this is why the running sum can be carried under a running
  maximum, and why the closing expression `s - x l + log (expSum x N s)` does not depend on `s`: it is the
  log of the sum of exponentials minus the entry at the label.  The reference's `-log (exp (x l - M) / expSum x N M)`
  is the same number.
-/
import proofs.«408263_j3899830304796_2_alg».proof.Proof.Spec

noncomputable section

open scoped BigOperators

namespace Cert.Xent

/-- The sum of `exp (x q - s)` over the first `n` entries of the row. -/
def expSum (x : ℕ → ℝ) (n : ℕ) (s : ℝ) : ℝ := ∑ q ∈ Finset.range n, Real.exp (x q - s)

theorem expSum_zero (x : ℕ → ℝ) (s : ℝ) : expSum x 0 s = 0 := by
  simp [expSum]

theorem expSum_pos (x : ℕ → ℝ) (n : ℕ) (hn : 0 < n) (s : ℝ) : 0 < expSum x n s := by
  unfold expSum
  exact Finset.sum_pos (fun q _ => Real.exp_pos _) (Finset.nonempty_range_iff.mpr (Nat.pos_iff_ne_zero.mp hn))

/-- Changing the shift from `s` to `s'` multiplies the sum by `exp (s - s')`. -/
theorem expSum_rescale (x : ℕ → ℝ) (n : ℕ) (s s' : ℝ) : Real.exp (s - s') * expSum x n s = expSum x n s' := by
  unfold expSum
  rw [Finset.mul_sum]
  refine Finset.sum_congr rfl (fun q _ => ?_)
  -- exp (s - s') * exp (x q - s) = exp ((s - s') + (x q - s)) = exp (x q - s')
  rw [← Real.exp_add]
  congr 1
  ring

/-- One step of the running sum: the carried sum rescaled to the new shift, plus the next `k` entries at the new shift. -/
theorem expSum_step (x : ℕ → ℝ) (n k : ℕ) (s s' : ℝ) :
    Real.exp (s - s') * expSum x n s + ∑ q ∈ Finset.range k, Real.exp (x (n + q) - s') = expSum x (n + k) s' := by
  rw [expSum_rescale]
  unfold expSum
  -- the sum over the first n + k entries splits at n
  rw [Finset.sum_range_add]

/-- The first step, from an empty sum. -/
theorem expSum_first (x : ℕ → ℝ) (k : ℕ) (s s' : ℝ) :
    Real.exp (s - s') * 0 + ∑ q ∈ Finset.range k, Real.exp (x (0 + q) - s') = expSum x k s' := by
  simp [expSum]

/-- The closing expression of the running form, at any shift. -/
theorem close_running (x : ℕ → ℝ) (l : ℕ) (s : ℝ) :
    s - x l + Real.log (expSum x 128000 s) = rowLoss x l := by
  -- the sum of exponentials is positive: every term is, and there are 128000 of them
  have hpos : 0 < ∑ q ∈ Finset.range 128000, Real.exp (x q) :=
    Finset.sum_pos (fun q _ => Real.exp_pos _) (Finset.nonempty_range_iff.mpr (by norm_num))
  -- the shifted sum is exp (-s) times the unshifted one
  have hfac : expSum x 128000 s = Real.exp (-s) * ∑ q ∈ Finset.range 128000, Real.exp (x q) := by
    unfold expSum
    rw [Finset.mul_sum]
    refine Finset.sum_congr rfl (fun q _ => ?_)
    rw [← Real.exp_add]
    congr 1
    ring
  -- so its logarithm is -s plus the logarithm of the unshifted sum
  rw [hfac, Real.log_mul (Real.exp_pos _).ne' hpos.ne', Real.log_exp]
  unfold rowLoss
  ring

/-- The reference's form, at any shift. -/
theorem close_quotient (x : ℕ → ℝ) (l : ℕ) (M : ℝ) :
    -Real.log (Real.exp (x l - M) / expSum x 128000 M) = rowLoss x l := by
  have hpos : 0 < expSum x 128000 M := expSum_pos x 128000 (by norm_num) M
  -- log (exp a / b) = a - log b, and the running form at shift M closes the rest
  rw [Real.log_div (Real.exp_pos _).ne' hpos.ne', Real.log_exp, ← close_running x l M]
  ring

/-- A finite sum of reals, as an extended real, is the sum of the extended reals. -/
theorem coe_finset_sum {ι : Type} (s : Finset ι) (f : ι → ℝ) :
    (((∑ i ∈ s, f i : ℝ)) : EReal) = ∑ i ∈ s, ((f i : ℝ) : EReal) := by
  classical
  refine Finset.induction_on s ?_ ?_
  · simp
  · intro a t ha ih
    rw [Finset.sum_insert ha, Finset.sum_insert ha, EReal.coe_add, ih]

/-- A sum over `Fin n` is the sum over `range n`. -/
theorem sum_fin_eq_range (n : ℕ) (f : ℕ → ℝ) : ∑ k : Fin n, f k.val = ∑ q ∈ Finset.range n, f q := by
  exact (Finset.sum_range f).symm

end Cert.Xent

end
-- ==== Proof.PayReal.lean ====
/-
  The body's arithmetic on real data.

  The kernel body's pure values, read at row `r` of a 256-row block, when every loaded entry is a real number:
  the reset value of the running maximum is a real; the new running maximum `max (old, row maximum)` is a real;
  the new running sum is `exp (old max - new max) * old sum + ∑ exp (entry - new max)`; the closing value is
  `(max - label logit) + log sum`.
-/
import proofs.«408263_j3899830304796_2_alg».proof.Proof.Gen.KernelIdeal.Skeleton
import proofs.«408263_j3899830304796_2_alg».proof.Proof.Online
import Idealize.ShloMosaic.PureOps.Ideal.Laws
import Idealize.ShloMosaic.Lib.Pipeline.Value
import Idealize.ShloMosaic.Lib.ValueLayout

noncomputable section

open scoped BigOperators

namespace Cert.KernelIdeal.XentPay

open Idealize.ShloMosaic Idealize.ShloMosaic.ValueIdx Cert.KernelIdeal Cert.KernelIdeal.Gen Cert.Xent

/-! ## Layout operations with a trailing unit axis, read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `r` with lane coordinate `k` is `(r, k)`. -/
theorem lift_row (h : S256x16000.Reduces [1] S256) (r : Fin 256) (k : Fin 16000) :
    h.lift (ix1 r) k = ix2 r k := by
  funext c
  match c with
  | ⟨0, _⟩ => exact Fin.ext rfl
  | ⟨1, _⟩ => exact Fin.ext rfl

/-- The maximum reduction's accumulator pattern is `⊥`. -/
theorem negInf_eq_bot : Ideal.ofBits .f32 0xFF800000#32 = (⊥ : EReal) := by
  simp [Ideal.ofBits, Ideal.ieee]

/-- The zero pattern is the real zero. -/
theorem zero_pattern : Ideal.ofBits .f32 0x00000000#32 = ((0 : ℝ) : EReal) := by
  simp [Ideal.ofBits, Ideal.ieee]

/-- The reset pattern of the running maximum is a finite one: the coercion of a real. -/
theorem reset_pattern : ∃ s : ℝ, Ideal.ofBits .f32 0xFF333332#32 = ((s : ℝ) : EReal) := by
  simp [Ideal.ofBits, Ideal.ieee, -EReal.coe_mul]
  exact ⟨_, (EReal.coe_neg _).symm⟩

/-! ## Maxima of coerced reals -/

/-- The coercion of reals commutes with `max`. -/
theorem coe_max_real (a b : ℝ) : (((max a b : ℝ)) : EReal) = max ((a : ℝ) : EReal) ((b : ℝ) : EReal) :=
  EReal.coe_strictMono.monotone.map_max

/-- A fold of `max` from `⊥` over coerced reals is `⊥` or a coerced real. -/
theorem fold_max_bot_or_real {ι : Type} [DecidableEq ι] (t : Finset ι) (f : ι → ℝ) :
    t.fold max (⊥ : EReal) (fun k => ((f k : ℝ) : EReal)) = ⊥
      ∨ ∃ m : ℝ, t.fold max (⊥ : EReal) (fun k => ((f k : ℝ) : EReal)) = ((m : ℝ) : EReal) := by
  induction t using Finset.induction_on with
  | empty => exact Or.inl Finset.fold_empty
  | insert a t ha ih =>
    right
    rw [Finset.fold_insert ha]
    rcases ih with h | ⟨m, h⟩
    · rw [h]; exact ⟨f a, max_bot_right _⟩
    · rw [h]; exact ⟨max (f a) m, (coe_max_real _ _).symm⟩

/-- The maximum of a coerced real and such a fold is a coerced real. -/
theorem max_fold_real {ι : Type} [DecidableEq ι] (t : Finset ι) (f : ι → ℝ) (s : ℝ) :
    ∃ m : ℝ, max ((s : ℝ) : EReal) (t.fold max (⊥ : EReal) (fun k => ((f k : ℝ) : EReal))) = ((m : ℝ) : EReal) := by
  rcases fold_max_bot_or_real t f with h | ⟨m, h⟩
  · rw [h]; exact ⟨s, max_bot_right _⟩
  · rw [h]; exact ⟨max s m, (coe_max_real _ _).symm⟩

/-! ## The two lane reductions at a row -/

/-- The maximum over the lanes of row `r`: the fold of `max` from `⊥` over the row's entries. -/
theorem rowMax_apply (x : FVec Ideal S256x16000 .f32) (h : S256x16000.Reduces [1] S256) (hφ : FKind.Formats .f32)
    (hacc : (0xFF800000#32 : BitVec 32) = 0xFF800000#32) (r : Fin 256) :
    multiReduction (F := Ideal) .maximumf [1] S256 x 0xFF800000#32 h hφ hacc (ix1 r)
      = (Finset.univ : Finset (Fin 16000)).fold max (⊥ : EReal) (fun k => x (ix2 r k)) := by
  refine (Ideal.multiReduction_maximumf_single x 0xFF800000#32 h hφ hacc (ix1 r)).trans ?_
  show (Finset.univ : Finset (Fin 16000)).fold max (Ideal.ofBits .f32 0xFF800000#32) (fun k => x (h.lift (ix1 r) k)) = _
  rw [negInf_eq_bot]
  exact congrArg (fun f => (Finset.univ : Finset (Fin 16000)).fold max (⊥ : EReal) f)
    (funext fun k => congrArg x (lift_row h r k))

/-- The sum over the lanes of row `r`: the sum of the row's entries. -/
theorem rowSum_apply (x : FVec Ideal S256x16000 .f32) (h : S256x16000.Reduces [1] S256) (hφ : FKind.Formats .f32)
    (hacc : (0x00000000#32 : BitVec 32) = 0x00000000#32) (r : Fin 256) :
    multiReduction (F := Ideal) .add [1] S256 x 0x00000000#32 h hφ hacc (ix1 r) = ∑ k : Fin 16000, x (ix2 r k) := by
  refine (Ideal.multiReduction_add_single x 0x00000000#32 h hφ hacc (ix1 r)).trans ?_
  show ∑ k : Fin 16000, x (h.lift (ix1 r) k) = _
  simp only [lift_row]

/-! ## The payloads at a row -/

/-- The new running maximum at row `r`: the old one against the row's maximum over the lanes. -/
theorem pay3_apply (v3 : Vec Ideal S256x16000 .f32) (v6 : Vec Ideal S256x1 .f32) (r : Fin 256) :
    k0_pay3 v3 v6 (ix2 r (0 : Fin 1))
      = max (v6 (ix2 r (0 : Fin 1))) ((Finset.univ : Finset (Fin 16000)).fold max (⊥ : EReal) (fun k => v3 (ix2 r k))) := by
  unfold k0_pay3
  dsimp only
  rw [maximumf_apply, shapeCast_a_a1_apply, rowMax_apply]

/-- The reset value of the running maximum is one real number in every row. -/
theorem reset_max_real : ∃ s : ℝ, ∀ r : Fin 256, (k0_pay1 (F := Ideal)) (ix2 r (0 : Fin 1)) = ((s : ℝ) : EReal) := by
  obtain ⟨s, hs⟩ := reset_pattern
  refine ⟨s, fun r => ?_⟩
  unfold k0_pay1
  rw [shapeCast_self, broadcast_apply]
  exact hs

/-- The reset value of the running sum is zero. -/
theorem reset_sum_zero (r : Fin 256) : (k0_pay2 (F := Ideal)) (ix2 r (0 : Fin 1)) = ((0 : ℝ) : EReal) := by
  unfold k0_pay2
  rw [shapeCast_self, broadcast_apply]
  exact zero_pattern

/-- The new running maximum of a real block over a real running maximum is real. -/
theorem new_max_real (v3 : Vec Ideal S256x16000 .f32) (v6 : Vec Ideal S256x1 .f32) (b : Fin 256 → Fin 16000 → ℝ) (s : Fin 256 → ℝ)
    (h3 : ∀ (r : Fin 256) (k : Fin 16000), v3 (ix2 r k) = ((b r k : ℝ) : EReal))
    (h6 : ∀ r : Fin 256, v6 (ix2 r (0 : Fin 1)) = ((s r : ℝ) : EReal)) :
    ∃ s' : Fin 256 → ℝ, ∀ r : Fin 256, k0_pay3 v3 v6 (ix2 r (0 : Fin 1)) = ((s' r : ℝ) : EReal) := by
  have key : ∀ r : Fin 256, ∃ m : ℝ, k0_pay3 v3 v6 (ix2 r (0 : Fin 1)) = ((m : ℝ) : EReal) := fun r => by
    rw [pay3_apply, h6]
    simp only [h3]
    exact max_fold_real Finset.univ (b r) (s r)
  exact ⟨fun r => (key r).choose, fun r => (key r).choose_spec⟩

/-- The stored running maximum is the new running maximum. -/
theorem stored_max_eq (v3 : Vec Ideal S256x16000 .f32) (v6 : Vec Ideal S256x1 .f32) : k0_pay5 v3 v6 = k0_pay3 v3 v6 := by
  unfold k0_pay5
  exact shapeCast_self _ _

/-- The new running sum: the old one rescaled to the new maximum, plus the block's exponentials at the new maximum. -/
theorem new_sum_real (v3 : Vec Ideal S256x16000 .f32) (v6 v8 v14 : Vec Ideal S256x1 .f32) (b : Fin 256 → Fin 16000 → ℝ)
    (s l s' : Fin 256 → ℝ)
    (h3 : ∀ (r : Fin 256) (k : Fin 16000), v3 (ix2 r k) = ((b r k : ℝ) : EReal))
    (h8 : ∀ r : Fin 256, v8 (ix2 r (0 : Fin 1)) = ((s r : ℝ) : EReal))
    (h14 : ∀ r : Fin 256, v14 (ix2 r (0 : Fin 1)) = ((l r : ℝ) : EReal))
    (h' : ∀ r : Fin 256, k0_pay3 v3 v6 (ix2 r (0 : Fin 1)) = ((s' r : ℝ) : EReal)) (r : Fin 256) :
    k0_pay4 v3 v6 v8 v14 (ix2 r (0 : Fin 1))
      = (((Real.exp (s r - s' r) * l r + ∑ k : Fin 16000, Real.exp (b r k - s' r) : ℝ)) : EReal) := by
  unfold k0_pay4
  dsimp only
  rw [shapeCast_self, addf_apply, mulf_apply, shapeCast_a_a1_apply, rowSum_apply]
  show Ideal.exp (v8 (ix2 r (0 : Fin 1)) - k0_pay3 v3 v6 (ix2 r (0 : Fin 1))) * v14 (ix2 r (0 : Fin 1))
      + ∑ k : Fin 16000, Ideal.exp (v3 (ix2 r k)
          - broadcastTo S256x16000 (k0_pay3 v3 v6) broadcasts_S256x1_S256x16000 (ix2 r k)) = _
  simp only [broadcastTo_a1_ab_apply, h3, h8, h14, h']
  rw [EReal.coe_add, EReal.coe_mul, coe_finset_sum]
  simp only [← EReal.coe_sub, Ideal.exp_coe]

/-- The closing value: running maximum minus the label's logit, plus the log of the (positive) running sum. -/
theorem closing_real (v28 v29 v32 : Vec Ideal S256x1 .f32) (s a l : Fin 256 → ℝ)
    (h28 : ∀ r : Fin 256, v28 (ix2 r (0 : Fin 1)) = ((s r : ℝ) : EReal))
    (h29 : ∀ r : Fin 256, v29 (ix2 r (0 : Fin 1)) = ((a r : ℝ) : EReal))
    (h32 : ∀ r : Fin 256, v32 (ix2 r (0 : Fin 1)) = ((l r : ℝ) : EReal))
    (hl : ∀ r : Fin 256, 0 < l r) (r : Fin 256) :
    k0_pay6 v28 v29 v32 (ix2 r (0 : Fin 1)) = (((s r - a r + Real.log (l r) : ℝ)) : EReal) := by
  unfold k0_pay6
  rw [addf_apply, subf_apply, shapeCast_self]
  show v28 (ix2 r (0 : Fin 1)) - v29 (ix2 r (0 : Fin 1)) + Ideal.log (v32 (ix2 r (0 : Fin 1))) = _
  rw [h28, h29, h32, Ideal.log_coe, if_neg (not_le.mpr (hl r)), EReal.coe_add, EReal.coe_sub]

end Cert.KernelIdeal.XentPay

end
-- ==== Proof.Blocks.lean ====
/-
  The blocks the body reads, as real numbers.

  Grid point `t` is row block `t / 8` and column block `t % 8`.  The logits' block there holds rows
  `256 * (t / 8) + r` and columns `16000 * (t % 8) + k` of the logits.  The label-logit block holds, for each of
  those rows, the logit at the row's label: the host gathers it before the launch, and for a label word in
  `[-128000, 128000)` the gather's range mask is on and its clamp is the identity.

  The label-logit array is named first as a function of the launched logits and label words (`taken`): per row, the
  label word with 128000 added where it is negative (`wrapWord`), a range test `0 ≤ idx ≤ 127999` reduced by `and`
  over a unit axis, a gather along the columns with the rows as a batching axis, and a select between the gathered
  logit and a fill value.  Under the label range every wrapped word is a column below 128000, so the test is 1 at
  every index, the select keeps the gathered logit, and the gather's clamp `min · 127999` changes nothing.
-/
import proofs.«408263_j3899830304796_2_alg».proof.Proof.Gen.KernelIdeal.Frame
import proofs.«408263_j3899830304796_2_alg».proof.Proof.Online
import Idealize.ShloMosaic.Lib.Pipeline.Value
import Idealize.ShloMosaic.Lib.StableHlo.Run
import Idealize.ShloMosaic.Lib.StableHlo.Predicate
import Idealize.ShloMosaic.Lib.ValueLayout
import Idealize.ShloMosaic.Lib.ReduceAll

noncomputable section

namespace Cert.KernelIdeal.XentBlocks

open Idealize.ShloMosaic Idealize.ShloMosaic.TcCoe Idealize.ShloMosaic.ValueIdx Idealize.SL.Sem
open Cert.KernelIdeal Cert.KernelIdeal.Gen Cert.Xent

variable (m : (ℓ : Loc nD τ sig) → Buf (Elt Ideal) ℓ)

/-- The logits and the labels as launched. -/
abbrev Xk (c : Dev nD) : FVec Ideal SX .f32 := m ((c : Thread nD τ).loc main_arg0)
abbrev Lk (c : Dev nD) : IVec SL 32 := m ((c : Thread nD τ).loc main_arg1)

/-- The logits' block and the label-logit block at a grid point, at their literal shapes. -/
abbrev xblk (c : Dev nD) (t : Fin cfg0.N) : Vec Ideal S256x16000 .f32 := iblk m c 0 t
abbrev lblk (c : Dev nD) (t : Fin cfg0.N) : Vec Ideal S256x1 .f32 := iblk m c 1 t

/-! ## The logits' block -/

/-- The logits' window reads row block `t / 8` and column block `t % 8`: the index map over the 32 grid points. -/
private theorem xidx : ∀ t : Fin cfg0.N, win0_0.index t 0 = t.val / 8 ∧ win0_0.index t 1 = t.val % 8 :=
  (by decide +kernel : ∀ t : Fin grid0.N, _)

private theorem point_lt (t : Fin cfg0.N) : t.val < 32 := lt_of_lt_of_eq t.isLt N_0

/-- Entry `(r, k)` of the logits' block at point `t`. -/
theorem xblk_real (c : Dev nD) (hadm : Admissible (Xk m c) (Lk m c)) (t : Fin cfg0.N) (r : Fin 256) (k : Fin 16000) :
    xblk m c t (ix2 r k) = ((realAt (Xk m c) (256 * (t.val / 8) + r.val) (16000 * (t.val % 8) + k.val) : ℝ) : EReal) := by
  have hi := xidx t
  have ht := point_lt t
  have h1 : 256 * (t.val / 8) + r.val < 1024 := by have := r.isLt; omega
  have h2 : 16000 * (t.val % 8) + k.val < 128000 := by have := k.isLt; omega
  unfold xblk iblk
  rw [View.read_apply]
  show V m c main_arg0 (((cfg0.win 0).blk t).view.emb (ix2 r k)) = _
  rw [V_main_arg0]
  have e : (((cfg0.win 0).blk t).view.emb (ix2 r k) : S1024x128000.Idx)
      = ix2 (⟨256 * (t.val / 8) + r.val, h1⟩ : Fin 1024) (⟨16000 * (t.val % 8) + k.val, h2⟩ : Fin 128000) := by
    funext a
    apply Fin.ext
    match a with
    | ⟨0, _⟩ => show win0_0.index t 0 * 256 + 1 * r.val = 256 * (t.val / 8) + r.val; rw [hi.1]; omega
    | ⟨1, _⟩ => show win0_0.index t 1 * 16000 + 1 * k.val = 16000 * (t.val % 8) + k.val; rw [hi.2]; omega
  rw [e]
  exact hadm.real ⟨256 * (t.val / 8) + r.val, h1⟩ ⟨16000 * (t.val % 8) + k.val, h2⟩

/-! ## A label word -/

/-- The signed reading of a 32-bit word from its unsigned one. -/
private theorem toInt_cases (w : BitVec 32) :
    (w.toNat < 2147483648 ∧ w.toInt = (w.toNat : ℤ)) ∨ (2147483648 ≤ w.toNat ∧ w.toInt = (w.toNat : ℤ) - 4294967296) := by
  rw [BitVec.toInt_eq_toNat_cond]
  have := w.isLt
  split <;> omega

/-- A word in `[-128000, 128000)`, wrapped, is a column: below 128000 as a natural number. -/
private theorem wrap_toNat_lt (w : BitVec 32) (lo : -128000 ≤ w.toInt) (hi : w.toInt < 128000) : (wrapWord w).toNat < 128000 := by
  unfold wrapWord
  rcases toInt_cases w with ⟨h1, h2⟩ | ⟨h1, h2⟩
  · rw [if_neg (by omega)]; omega
  · rw [if_pos (by omega), BitVec.toNat_add]
    show (w.toNat + 128000) % 4294967296 < 128000
    omega

/-- Its signed reading is that column. -/
private theorem wrap_toInt (w : BitVec 32) (lo : -128000 ≤ w.toInt) (hi : w.toInt < 128000) :
    (wrapWord w).toInt = ((wrapWord w).toNat : ℤ) := by
  have h := wrap_toNat_lt w lo hi
  rcases toInt_cases (wrapWord w) with ⟨_, h2⟩ | ⟨h1, _⟩
  · exact h2
  · omega

/-- The index the host computes — the word, or the word plus 128000 where it compares below zero — is the wrapped word. -/
private theorem index_eq_wrap (w : BitVec 32) :
    Scalar.select (IntOp.cmpi .slt w 0#32) (IntOp.addi w 128000#32) w = wrapWord w := by
  unfold wrapWord
  by_cases h : w.toInt < 0
  · have e : IntOp.cmpi .slt w 0#32 = 1#1 := by
      show BitVec.ofBool (w.slt 0#32) = 1#1
      rw [StableHlo.Predicate.ofBool_eq_one_iff, BitVec.slt_iff_toInt_lt]
      exact h
    rw [e, select_one, if_pos h]; rfl
  · have e : IntOp.cmpi .slt w 0#32 = 0#1 := by
      show BitVec.ofBool (w.slt 0#32) = 0#1
      have : w.slt 0#32 = false := by
        rw [Bool.eq_false_iff]; intro hc; exact h (BitVec.slt_iff_toInt_lt.mp hc)
      rw [this]; rfl
    rw [e, select_zero, if_neg h]

/-- The host's range test of a column: `0 ≤ v` and `v ≤ 127999`, both signed, both hold. -/
private theorem mask_bit (v : BitVec 32) (hv : v.toNat < 128000) :
    IntOp.andi (IntOp.cmpi .sge v 0#32) (IntOp.cmpi .sle v 127999#32) = 1#1 := by
  have hI : v.toInt = (v.toNat : ℤ) := by
    rcases toInt_cases v with ⟨_, h2⟩ | ⟨h1, _⟩
    · exact h2
    · omega
  have e1 : IntOp.cmpi .sge v 0#32 = 1#1 := by
    show BitVec.ofBool ((0#32).sle v) = 1#1
    rw [StableHlo.Predicate.ofBool_eq_one_iff, BitVec.sle_iff_toInt_le]
    show (0 : ℤ) ≤ v.toInt
    omega
  have e2 : IntOp.cmpi .sle v 127999#32 = 1#1 := by
    show BitVec.ofBool (v.sle 127999#32) = 1#1
    rw [StableHlo.Predicate.ofBool_eq_one_iff, BitVec.sle_iff_toInt_le]
    show v.toInt ≤ (127999 : ℤ)
    omega
  rw [e1, e2]; rfl

/-- A fold by `and` from 1 over bits that are all 1 is 1. -/
private theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    rw [List.foldl_cons]
    refine foldl_andi_one f l _ ?_ (fun n hn => hl n (List.mem_cons_of_mem _ hn))
    rw [h, hl a (List.mem_cons_self ..)]; rfl

/-- A reduction by `and` from 1 of a mask that is 1 everywhere is 1 everywhere. -/
private theorem reduce_andi_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl]
  exact foldl_andi_one x _ _ (hinit _) (fun n _ => hx n)

/-! ## The host's take along the columns, as functions of the logits and the label words -/

section Take

/-- The label words as a column. -/
private def labCol (L : IVec SL 32) : IVec S1024x1 32 := shapeCast S1024x1 L shapeCasts_S1024_S1024x1

/-- The column index per row: the label word, with 128000 added where it compares below zero. -/
private def idxCol (L : IVec SL 32) : IVec S1024x1 32 :=
  select (cmpi .slt (labCol L) (broadcastInDim S1024x1 ![] bcast_S_S1024x1 (constantI S_ 32 0#32)))
    (addi (labCol L) (broadcastInDim S1024x1 ![] bcast_S_S1024x1 (constantI S_ 32 128000#32)))
    (labCol L)

/-- The same with a unit index-vector axis, as the gather reads it. -/
private def idxVec (L : IVec SL 32) : IVec S1024x1x1 32 := shapeCast S1024x1x1 (idxCol L) shapeCasts_S1024x1_S1024x1x1

/-- The range test of every index: `0 ≤ idx` and `idx ≤ 127999`, signed. -/
private def inRange (L : IVec SL 32) : IVec S1024x1x1 1 :=
  andi (cmpi .sge (idxVec L) (broadcastInDim S1024x1x1 ![] bcast_S_S1024x1x1 (constantI S_ 32 0#32)))
    (cmpi .sle (idxVec L) (broadcastInDim S1024x1x1 ![0, 1, 2] bcast_S1x1x1_S1024x1x1_0_1_2
      (broadcastInDim S1x1x1 ![2] bcast_S1_S1x1x1_2 (constantI S1 32 127999#32))))

/-- The test reduced by `and` over the unit axis: one bit per row. -/
private def rowMask (L : IVec SL 32) : IVec S1024x1 1 :=
  Host.reduce IntOp.andi (inRange L) (constantI S_ 1 1#1) reducesTo_S1024x1x1_S1024x1_d2 h_S_

/-- What the host leaves in the label-logit array: per row the gathered logit where the row's bit is set, else the
    fill value. -/
private def taken (X : FVec Ideal SX .f32) (L : IVec SL 32) : FVec Ideal S1024x1 .f32 :=
  select (rowMask L) (Host.gather gather_S1024x128000_S1024x1x1_S1024x1_n_1_0_0_1_2_11 X (idxVec L))
    (broadcastInDim S1024x1 ![] bcast_S_S1024x1 (constant (F := Ideal) S_ .f32 0x7FC00000#32))

end Take

/-! ## Reading the take at a row -/

section Read
variable (X : FVec Ideal SX .f32) (L : IVec SL 32)

private theorem labCol_apply (R : Fin 1024) (u : Fin 1) : labCol L (ix2 R u) = L (ix1 R) := by
  unfold labCol
  refine shapeCast_apply _ _ _ _ ?_
  rw [Shape.rowMajor_val_one, Shape.rowMajor_val_two]
  show R.val = R.val * 1 + u.val
  have := u.isLt
  omega

/-- Row `R`'s index is its label word wrapped. -/
private theorem idxCol_apply (R : Fin 1024) (u : Fin 1) : idxCol L (ix2 R u) = wrapWord (L (ix1 R)) := by
  unfold idxCol
  rw [select_apply]
  show Scalar.select (IntOp.cmpi .slt (labCol L (ix2 R u)) 0#32) (IntOp.addi (labCol L (ix2 R u)) 128000#32)
    (labCol L (ix2 R u)) = _
  rw [labCol_apply, index_eq_wrap]

private theorem idxVec_apply (R : Fin 1024) (u v : Fin 1) : idxVec L (ix3 R u v) = wrapWord (L (ix1 R)) := by
  unfold idxVec
  rw [shapeCast_apply (idxCol L) _ (ix3 R u v) (ix2 R (0 : Fin 1)) (by
    rw [Shape.rowMajor_val_two, Shape.rowMajor_val_three]
    show R.val * 1 + 0 = (R.val * 1 + u.val) * 1 + v.val
    have := u.isLt
    have := v.isLt
    omega)]
  exact idxCol_apply L R 0

/-- Under the label range every index passes the range test. -/
private theorem inRange_ix3 (lo : ∀ i : Fin 1024, -128000 ≤ (L (ix1 i)).toInt) (hi : ∀ i : Fin 1024, (L (ix1 i)).toInt < 128000)
    (R : Fin 1024) (u v : Fin 1) : inRange L (ix3 R u v) = 1#1 := by
  unfold inRange
  show IntOp.andi (IntOp.cmpi .sge (idxVec L (ix3 R u v)) 0#32) (IntOp.cmpi .sle (idxVec L (ix3 R u v)) 127999#32) = 1#1
  rw [idxVec_apply]
  exact mask_bit _ (wrap_toNat_lt _ (lo _) (hi _))

private theorem inRange_one (lo : ∀ i : Fin 1024, -128000 ≤ (L (ix1 i)).toInt) (hi : ∀ i : Fin 1024, (L (ix1 i)).toInt < 128000)
    (i : S1024x1x1.Idx) : inRange L i = 1#1 := by
  rw [eq_ix3 i]
  exact inRange_ix3 L lo hi _ _ _

/-- So every row's bit is set. -/
private theorem rowMask_one (lo : ∀ i : Fin 1024, -128000 ≤ (L (ix1 i)).toInt) (hi : ∀ i : Fin 1024, (L (ix1 i)).toInt < 128000)
    (j : S1024x1.Idx) : rowMask L j = 1#1 := by
  unfold rowMask
  exact reduce_andi_one _ _ _ _ (fun _ => rfl) (inRange_one L lo hi) j

end Read

/-! ## The gather at a row -/

section Gather

/-- Row `R` of the gather reads the logits at row `R` (the batching axis) and at the column its start index names, read
    signed and clamped into `[0, 127999]`. -/
private theorem gather_row (X : FVec Ideal SX .f32) (idx : IVec S1024x1x1 32) (R : Fin 1024) :
    Host.gather gather_S1024x128000_S1024x1x1_S1024x1_n_1_0_0_1_2_11 X idx (ix2 R (0 : Fin 1))
      = X (ix2 R (⟨min (idx (ix3 R (0 : Fin 1) (0 : Fin 1))).toInt.toNat 127999, by omega⟩ : Fin 128000)) := by
  unfold Host.gather
  congr 1
  funext a
  refine Fin.ext ?_
  match a with
  | ⟨0, _⟩ =>
    show gather_S1024x128000_S1024x1x1_S1024x1_n_1_0_0_1_2_11.start (ix2 R (0 : Fin 1)) idx 0
      + gather_S1024x128000_S1024x1x1_S1024x1_n_1_0_0_1_2_11.batchCoord (ix2 R (0 : Fin 1)) 0
      + gather_S1024x128000_S1024x1x1_S1024x1_n_1_0_0_1_2_11.offCoord (ix2 R (0 : Fin 1)) 0 = R.val
    have hb : (0 : Fin 2) ∈ gather_S1024x128000_S1024x1x1_S1024x1_n_1_0_0_1_2_11.operandBatchingDims :=
      show (0 : Fin 2) ∈ [(0 : Fin 2)] from List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show gather_S1024x128000_S1024x1x1_S1024x1_n_1_0_0_1_2_11.start (ix2 R (0 : Fin 1)) idx 1
      + gather_S1024x128000_S1024x1x1_S1024x1_n_1_0_0_1_2_11.batchCoord (ix2 R (0 : Fin 1)) 1
      + gather_S1024x128000_S1024x1x1_S1024x1_n_1_0_0_1_2_11.offCoord (ix2 R (0 : Fin 1)) 1
        = min (idx (ix3 R (0 : Fin 1) (0 : Fin 1))).toInt.toNat 127999
    have hc : (1 : Fin 2) ∈ gather_S1024x128000_S1024x1x1_S1024x1_n_1_0_0_1_2_11.collapsedSliceDims :=
      show (1 : Fin 2) ∈ [(1 : Fin 2)] from List.mem_singleton.mpr rfl
    have hnb : (1 : Fin 2) ∉ gather_S1024x128000_S1024x1x1_S1024x1_n_1_0_0_1_2_11.operandBatchingDims :=
      show (1 : Fin 2) ∉ [(0 : Fin 2)] from by decide
    have hs : (1 : Fin 2) ∈ gather_S1024x128000_S1024x1x1_S1024x1_n_1_0_0_1_2_11.startIndexMap :=
      show (1 : Fin 2) ∈ [(1 : Fin 2)] from List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hs]
    have hsi : gather_S1024x128000_S1024x1x1_S1024x1_n_1_0_0_1_2_11.siIdx (ix2 R (0 : Fin 1))
        ⟨List.idxOf (1 : Fin 2) gather_S1024x128000_S1024x1x1_S1024x1_n_1_0_0_1_2_11.startIndexMap,
          List.idxOf_lt_length_iff.2 hs⟩ = ix3 R (0 : Fin 1) (0 : Fin 1) := by
      funext b; refine Fin.ext ?_
      match b with
      | ⟨0, _⟩ => rfl
      | ⟨1, _⟩ => rfl
      | ⟨2, _⟩ => rfl
    rw [hsi]
    rfl

end Gather

/-- Row `R` of the take under the label range: the logit at row `R` and the row's wrapped label. The range test is on,
    and the gather's clamp is the identity on a column below 128000. -/
private theorem taken_apply (X : FVec Ideal SX .f32) (L : IVec SL 32)
    (lo : ∀ i : Fin 1024, -128000 ≤ (L (ix1 i)).toInt) (hi : ∀ i : Fin 1024, (L (ix1 i)).toInt < 128000)
    (R : Fin 1024) (hq : (wrapWord (L (ix1 R))).toNat < 128000) :
    taken X L (ix2 R (0 : Fin 1)) = X (ix2 R (⟨(wrapWord (L (ix1 R))).toNat, hq⟩ : Fin 128000)) := by
  unfold taken
  rw [select_apply, rowMask_one L lo hi, select_one, gather_row]
  have hm : min (idxVec L (ix3 R (0 : Fin 1) (0 : Fin 1))).toInt.toNat 127999 = (wrapWord (L (ix1 R))).toNat := by
    rw [idxVec_apply, wrap_toInt _ (lo R) (hi R)]
    omega
  exact congrArg (fun q : Fin 128000 => X (ix2 R q)) (Fin.ext hm)

/-! ## The label-logit block -/

set_option maxHeartbeats 1000000 in
/-- The label-logit array as the region finds it is the host's take of the launched logits at the launched labels. -/
private theorem V_label (c : Dev nD) : (V m c main_v1 : S1024x1.Idx → EReal) = taken (Xk m c) (Lk m c) := by
  dsimp only [Gen.V, Gen.V0]
  simp only [Gen.hostOps0, Gen.hostOps0_1, List.flatten_cons, List.flatten_nil, List.append_nil, List.cons_append, List.nil_append]
  after_results_simp
  simp only [StableHlo.TRef.ofBuf, StableHlo.TRef.toBuf, cast_eq]
  unfold taken rowMask inRange idxVec idxCol labCol
  rfl

/-- The label-logit window reads row block `t / 8` of its one column: the index map over the 32 grid points. -/
private theorem lidx : ∀ t : Fin cfg0.N, win0_1.index t 0 = t.val / 8 ∧ win0_1.index t 1 = 0 :=
  (by decide +kernel : ∀ t : Fin grid0.N, _)

/-- Row `r` of the label-logit block at point `t`: the row's logit at its label. -/
theorem lblk_real (c : Dev nD) (hadm : Admissible (Xk m c) (Lk m c)) (t : Fin cfg0.N) (r : Fin 256) :
    lblk m c t (ix2 r (0 : Fin 1))
      = ((realAt (Xk m c) (256 * (t.val / 8) + r.val) (labAt (Lk m c) (256 * (t.val / 8) + r.val)) : ℝ) : EReal) := by
  have hi := lidx t
  have ht := point_lt t
  have h1 : 256 * (t.val / 8) + r.val < 1024 := by have := r.isLt; omega
  unfold lblk iblk
  rw [View.read_apply]
  show V m c main_v1 (((cfg0.win 1).blk t).view.emb (ix2 r (0 : Fin 1))) = _
  have e : (((cfg0.win 1).blk t).view.emb (ix2 r (0 : Fin 1)) : S1024x1.Idx)
      = ix2 (⟨256 * (t.val / 8) + r.val, h1⟩ : Fin 1024) (0 : Fin 1) := by
    funext a
    apply Fin.ext
    match a with
    | ⟨0, _⟩ => show win0_1.index t 0 * 256 + 1 * r.val = 256 * (t.val / 8) + r.val; rw [hi.1]; omega
    | ⟨1, _⟩ => show win0_1.index t 1 * 1 + 1 * 0 = 0; rw [hi.2]
  rw [e, show (V m c main_v1 : S1024x1.Idx → EReal) = _ from V_label m c]
  have hq := wrap_toNat_lt _ (hadm.lo ⟨_, h1⟩) (hadm.hi ⟨_, h1⟩)
  rw [taken_apply (Xk m c) (Lk m c) hadm.lo hadm.hi ⟨_, h1⟩ hq, hadm.real]
  have hl : labAt (Lk m c) (256 * (t.val / 8) + r.val)
      = (wrapWord (Lk m c (ix1 (⟨256 * (t.val / 8) + r.val, h1⟩ : Fin 1024)))).toNat := by
    unfold labAt
    rw [dif_pos h1]
  rw [hl]

end Cert.KernelIdeal.XentBlocks

end
-- ==== Proof.Induct.lean ====
/-
  The running maximum and the running sum, point by point, and the closing value.

  Grid point `t` is row block `t / 8`, column block `t % 8`.  After it, row `r` of the carried running maximum is some
  real `s r`, and row `r` of the carried running sum is the sum of `exp (x q - s r)` over the first
  `16000 * (t % 8 + 1)` entries of the logits' row `256 * (t / 8) + r`: at the first column block the state is reset
  and updated from the reset values; at the others it is updated from what the point before left, the carried sum
  rescaled by `exp (old maximum - new maximum)`.  At the last column block the row is complete, and the output block
  holds `s r - (logit at the label) + log (sum)`, which is the row's cross-entropy whatever `s r` is.
-/
import proofs.«408263_j3899830304796_2_alg».proof.Proof.Pieces
import proofs.«408263_j3899830304796_2_alg».proof.Proof.PayReal
import proofs.«408263_j3899830304796_2_alg».proof.Proof.Blocks

noncomputable section

open scoped BigOperators

namespace Cert.KernelIdeal.XentInduct

open Idealize.ShloMosaic Idealize.ShloMosaic.TcCoe Idealize.ShloMosaic.ValueIdx Idealize.SL.Sem
open Cert.KernelIdeal Cert.KernelIdeal.Gen Cert.Xent
open Cert.KernelIdeal.XentBlocks Cert.KernelIdeal.XentPay Cert.KernelIdeal.XentPieces

variable (m : (ℓ : Loc nD τ sig) → Buf (Elt Ideal) ℓ)

/-- What the point before `t` left: the output block (unused), the running maximum, the running sum. -/
abbrev before (c : Dev nD) (t : Fin cfg0.N) : Vec Ideal S256x1 .f32 × Vec Ideal S256x1 .f32 × Vec Ideal S256x1 .f32 :=
  outsAt0 m c (t.val - 1) (Nat.lt_of_le_of_lt (Nat.sub_le _ _) t.isLt)

/-! ## What each point leaves, as the body's values -/

/-- At a first column block the running maximum is updated from the reset value. -/
theorem max_first (c : Dev nD) (t : Fin cfg0.N) (h0 : t.val % 8 = 0) :
    (outsAt0 m c t.val t.isLt).2.1 = k0_pay5 (xblk m c t) (k0_pay1 (F := Ideal)) := by
  have h1 : ¬t.val % 8 = 7 := by omega
  rw [outsAt0_A m c t h0 h1]
  dsimp only
  exact max_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- At a first column block the running sum is updated from the reset values. -/
theorem sum_first (c : Dev nD) (t : Fin cfg0.N) (h0 : t.val % 8 = 0) :
    (outsAt0 m c t.val t.isLt).2.2
      = k0_pay4 (xblk m c t) (k0_pay1 (F := Ideal)) (k0_pay1 (F := Ideal)) (k0_pay2 (F := Ideal)) := by
  have h1 : ¬t.val % 8 = 7 := by omega
  rw [outsAt0_A m c t h0 h1]
  dsimp only
  exact sum_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- At a later column block the running maximum is updated from what the point before left. -/
theorem max_next (c : Dev nD) (t : Fin cfg0.N) (h0 : ¬t.val % 8 = 0) :
    (outsAt0 m c t.val t.isLt).2.1 = k0_pay5 (xblk m c t) (before m c t).2.1 := by
  by_cases h1 : t.val % 8 = 7
  · rw [outsAt0_C m c t h0 h1]
    dsimp only
    exact max_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (before m c t).2.1 (before m c t).2.2
  · rw [outsAt0_B m c t h0 h1]
    dsimp only
    exact max_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (before m c t).2.1 (before m c t).2.2

/-- At a later column block the running sum is updated from what the point before left. -/
theorem sum_next (c : Dev nD) (t : Fin cfg0.N) (h0 : ¬t.val % 8 = 0) :
    (outsAt0 m c t.val t.isLt).2.2
      = k0_pay4 (xblk m c t) (before m c t).2.1 (before m c t).2.1 (before m c t).2.2 := by
  by_cases h1 : t.val % 8 = 7
  · rw [outsAt0_C m c t h0 h1]
    dsimp only
    exact sum_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (before m c t).2.1 (before m c t).2.2
  · rw [outsAt0_B m c t h0 h1]
    dsimp only
    exact sum_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (before m c t).2.1 (before m c t).2.2

/-- At a last column block the output block is the closing value of this point's maximum, the label logits and this
    point's sum. -/
theorem out_last (c : Dev nD) (t : Fin cfg0.N) (h7 : t.val % 8 = 7) :
    (outsAt0 m c t.val t.isLt).1
      = k0_pay6 (outsAt0 m c t.val t.isLt).2.1 (lblk m c t) (outsAt0 m c t.val t.isLt).2.2 := by
  have h0 : ¬t.val % 8 = 0 := by omega
  rw [max_next m c t h0, sum_next m c t h0, outsAt0_C m c t h0 h7]
  dsimp only
  exact out_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h7) (iblk m c 0 t) (iblk m c 1 t) (before m c t).2.1 (before m c t).2.2

/-! ## The carried state is real, with the sum in closed form -/

/-- After point `n`: the running maximum is real in every row, and the running sum is the row's partial sum of
    exponentials at that shift. -/
def Carried (c : Dev nD) (n : ℕ) (h : n < cfg0.N) : Prop :=
  ∃ s : Fin 256 → ℝ,
    (∀ r : Fin 256, (outsAt0 m c n h).2.1 (ix2 r (0 : Fin 1)) = ((s r : ℝ) : EReal))
    ∧ (∀ r : Fin 256, (outsAt0 m c n h).2.2 (ix2 r (0 : Fin 1))
        = ((expSum (realAt (Xk m c) (256 * (n / 8) + r.val)) (16000 * (n % 8 + 1)) (s r) : ℝ) : EReal))

theorem carried_first (c : Dev nD) (hadm : Admissible (Xk m c) (Lk m c)) (t : Fin cfg0.N) (h0 : t.val % 8 = 0) :
    Carried m c t.val t.isLt := by
  obtain ⟨s0, hs0⟩ := reset_max_real
  have h3 : ∀ (r : Fin 256) (k : Fin 16000), xblk m c t (ix2 r k)
      = ((realAt (Xk m c) (256 * (t.val / 8) + r.val) (16000 * (t.val % 8) + k.val) : ℝ) : EReal) :=
    fun r k => xblk_real m c hadm t r k
  obtain ⟨s', hs'⟩ := new_max_real (xblk m c t) (k0_pay1 (F := Ideal))
    (fun r k => realAt (Xk m c) (256 * (t.val / 8) + r.val) (16000 * (t.val % 8) + k.val)) (fun _ => s0) h3 hs0
  refine ⟨s', fun r => ?_, fun r => ?_⟩
  · rw [max_first m c t h0, stored_max_eq]
    exact hs' r
  · rw [sum_first m c t h0,
      new_sum_real (xblk m c t) (k0_pay1 (F := Ideal)) (k0_pay1 (F := Ideal)) (k0_pay2 (F := Ideal))
        (fun r k => realAt (Xk m c) (256 * (t.val / 8) + r.val) (16000 * (t.val % 8) + k.val))
        (fun _ => s0) (fun _ => 0) s' h3 hs0 reset_sum_zero hs' r]
    refine congrArg (fun z : ℝ => (z : EReal)) ?_
    have e1 : ∑ k : Fin 16000, Real.exp (realAt (Xk m c) (256 * (t.val / 8) + r.val) (16000 * (t.val % 8) + k.val) - s' r)
        = ∑ q ∈ Finset.range 16000, Real.exp (realAt (Xk m c) (256 * (t.val / 8) + r.val) (16000 * (t.val % 8) + q) - s' r) :=
      sum_fin_eq_range 16000 (fun q => Real.exp (realAt (Xk m c) (256 * (t.val / 8) + r.val) (16000 * (t.val % 8) + q) - s' r))
    have e2 := expSum_first (realAt (Xk m c) (256 * (t.val / 8) + r.val)) 16000 s0 (s' r)
    rw [e1, h0]
    simp only [Nat.mul_zero, Nat.zero_add, Nat.mul_one] at e2 ⊢
    exact e2

theorem carried_next (c : Dev nD) (hadm : Admissible (Xk m c) (Lk m c)) (t : Fin cfg0.N) (h0 : ¬t.val % 8 = 0)
    (ih : Carried m c (t.val - 1) (Nat.lt_of_le_of_lt (Nat.sub_le _ _) t.isLt)) : Carried m c t.val t.isLt := by
  obtain ⟨s, hs, hl⟩ := ih
  have hq : (t.val - 1) / 8 = t.val / 8 := by omega
  have hr : (t.val - 1) % 8 + 1 = t.val % 8 := by omega
  rw [hq, hr] at hl
  have h3 : ∀ (r : Fin 256) (k : Fin 16000), xblk m c t (ix2 r k)
      = ((realAt (Xk m c) (256 * (t.val / 8) + r.val) (16000 * (t.val % 8) + k.val) : ℝ) : EReal) :=
    fun r k => xblk_real m c hadm t r k
  obtain ⟨s', hs'⟩ := new_max_real (xblk m c t) (before m c t).2.1
    (fun r k => realAt (Xk m c) (256 * (t.val / 8) + r.val) (16000 * (t.val % 8) + k.val)) s h3 hs
  refine ⟨s', fun r => ?_, fun r => ?_⟩
  · rw [max_next m c t h0, stored_max_eq]
    exact hs' r
  · rw [sum_next m c t h0,
      new_sum_real (xblk m c t) (before m c t).2.1 (before m c t).2.1 (before m c t).2.2
        (fun r k => realAt (Xk m c) (256 * (t.val / 8) + r.val) (16000 * (t.val % 8) + k.val))
        s (fun r => expSum (realAt (Xk m c) (256 * (t.val / 8) + r.val)) (16000 * (t.val % 8)) (s r)) s' h3 hs hl hs' r]
    refine congrArg (fun z : ℝ => (z : EReal)) ?_
    have e1 : ∑ k : Fin 16000, Real.exp (realAt (Xk m c) (256 * (t.val / 8) + r.val) (16000 * (t.val % 8) + k.val) - s' r)
        = ∑ q ∈ Finset.range 16000, Real.exp (realAt (Xk m c) (256 * (t.val / 8) + r.val) (16000 * (t.val % 8) + q) - s' r) :=
      sum_fin_eq_range 16000 (fun q => Real.exp (realAt (Xk m c) (256 * (t.val / 8) + r.val) (16000 * (t.val % 8) + q) - s' r))
    have e2 := expSum_step (realAt (Xk m c) (256 * (t.val / 8) + r.val)) (16000 * (t.val % 8)) 16000 (s r) (s' r)
    rw [e1, e2, Nat.mul_succ]

theorem carried (c : Dev nD) (hadm : Admissible (Xk m c) (Lk m c)) : ∀ (n : ℕ) (h : n < cfg0.N), Carried m c n h
  | 0, h => carried_first m c hadm ⟨0, h⟩ rfl
  | n + 1, h => by
    by_cases h0 : (n + 1) % 8 = 0
    · exact carried_first m c hadm ⟨n + 1, h⟩ h0
    · exact carried_next m c hadm ⟨n + 1, h⟩ h0 (carried c hadm n (Nat.lt_of_succ_lt h))

end Cert.KernelIdeal.XentInduct

end
-- ==== Proof.OutBlock.lean ====
/-
  The output block at a last column block.

  There the row is complete: the carried sum is the sum of `exp (x q - s)` over all 128000 entries of the row, so
  `s - (logit at the label) + log (sum)` is the log of the sum of exponentials minus the logit at the label,
  whatever the real shift `s` is.
-/
import proofs.«408263_j3899830304796_2_alg».proof.Proof.Induct
import Idealize.ShloMosaic.Lib.Pipeline.Value
import Idealize.ShloMosaic.Lib.StableHlo.Run
import Idealize.ShloMosaic.PureOps.Ideal.Laws

noncomputable section

open scoped BigOperators

namespace Cert.KernelIdeal.XentOut

open Idealize.ShloMosaic Idealize.ShloMosaic.TcCoe Idealize.ShloMosaic.ValueIdx Idealize.SL.Sem
open Idealize.ShloMosaic.Pipeline (Dat)
open Cert.KernelIdeal Cert.KernelIdeal.Gen Cert.Xent
open Cert.KernelIdeal.XentBlocks Cert.KernelIdeal.XentPay Cert.KernelIdeal.XentPieces Cert.KernelIdeal.XentInduct

variable (m : (ℓ : Loc nD τ sig) → Buf (Elt Ideal) ℓ)

/-- Row `r` of the output block at the last column block of row block `t / 8`: the row's cross-entropy. -/
theorem out_real (c : Dev nD) (hadm : Admissible (Xk m c) (Lk m c)) (t : Fin cfg0.N) (h7 : t.val % 8 = 7) (r : Fin 256) :
    (outsAt0 m c t.val t.isLt).1 (ix2 r (0 : Fin 1))
      = ((rowLoss (realAt (Xk m c) (256 * (t.val / 8) + r.val)) (labAt (Lk m c) (256 * (t.val / 8) + r.val)) : ℝ) : EReal) := by
  -- what the point leaves in the two scratch buffers: a real shift `s r` per row, and the sum of `exp (x q - s r)`
  -- over the first `16000 * (t % 8 + 1)` entries of the row
  obtain ⟨s, hs, hl⟩ := carried m c hadm t.val t.isLt
  -- at a last column block the output block is the closing value of those two and the logits at the labels
  rw [out_last m c t h7]
  refine (closing_real (outsAt0 m c t.val t.isLt).2.1 (lblk m c t) (outsAt0 m c t.val t.isLt).2.2 s
    (fun r : Fin 256 => realAt (Xk m c) (256 * (t.val / 8) + r.val) (labAt (Lk m c) (256 * (t.val / 8) + r.val)))
    (fun r : Fin 256 => expSum (realAt (Xk m c) (256 * (t.val / 8) + r.val)) (16000 * (t.val % 8 + 1)) (s r))
    hs (fun r => lblk_real m c hadm t r) hl
    (fun r => expSum_pos (realAt (Xk m c) (256 * (t.val / 8) + r.val)) (16000 * (t.val % 8 + 1)) (by omega) (s r)) r).trans ?_
  refine congrArg (fun z : ℝ => (z : EReal)) ?_
  -- `t % 8 = 7`: the sum runs over all `16000 * 8 = 128000` entries, and the shift cancels
  rw [h7]
  exact close_running (realAt (Xk m c) (256 * (t.val / 8) + r.val)) (labAt (Lk m c) (256 * (t.val / 8) + r.val)) (s r)

end Cert.KernelIdeal.XentOut

end
-- ==== Proof.KArray.lean ====
/-
  The kernel's result array.

  The output window's block for row block `i` is written back once, after the last column block, and holds the
  cross-entropies of rows `256 * i .. 256 * i + 255`; the four blocks tile the [1024, 1] array, so after the launch the
  array holds every row's cross-entropy.
-/
import proofs.«408263_j3899830304796_2_alg».proof.Proof.OutBlock
import Idealize.ShloMosaic.Lib.Pipeline.Value
import Idealize.ShloMosaic.Lib.StableHlo.Run
import Idealize.ShloMosaic.PureOps.Ideal.Laws

noncomputable section

open scoped BigOperators

namespace Cert.KernelIdeal.XentArray

open Idealize.ShloMosaic Idealize.ShloMosaic.TcCoe Idealize.ShloMosaic.ValueIdx Idealize.SL.Sem
open Idealize.ShloMosaic.Pipeline (Dat)
open Cert.KernelIdeal Cert.KernelIdeal.Gen Cert.Xent
open Cert.KernelIdeal.XentBlocks Cert.KernelIdeal.XentPay Cert.KernelIdeal.XentPieces Cert.KernelIdeal.XentInduct Cert.KernelIdeal.XentOut

variable (m : (ℓ : Loc nD τ sig) → Buf (Elt Ideal) ℓ)

/-- Every row's cross-entropy, as contents of the kernel's [1024, 1] result array. -/
abbrev lossCol (c : Dev nD) : Buf (Elt Ideal) ((c : Thread nD τ).loc main_v2) :=
  fun y => ((rowLoss (realAt (Xk m c) (y 0).val) (labAt (Lk m c) (y 0).val) : ℝ) : EReal)

/-- The output window's index map, decided over the grid: point `t` holds row block `t / 8` and the single column block. -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- An index of the array is in point `t`'s block iff each coordinate is in the block's range on its axis. -/
theorem mem_blk (t : Fin cfg0.N) (i : S1024x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v2).slice (win0_2.rect t)).set ↔ _
  rw [View.set_slice_whole, Rect.mem_set_unit]
  exact Iff.rfl

/-- Every index of the array lies in the block of a point that writes back: row `i 0` is in row block `(i 0) / 256`,
    which is written back at its last column block, point `8 * ((i 0) / 256) + 7`. -/
theorem cover (i : S1024x1.Idx) :
    ∃ t : Fin cfg0.N, (cfg0.win 2).flush t = true ∧ i ∈ ((cfg0.win 2).blk t).view.set := by
  have hN : cfg0.N = 32 := N_0
  have hi0 : (i 0).val < 1024 := (i 0).isLt
  have hi1 : (i 1).val < 1 := (i 1).isLt
  have hlt : 8 * ((i 0).val / 256) + 7 < cfg0.N := by omega
  have e0 : win0_2.index ⟨8 * ((i 0).val / 256) + 7, hlt⟩ (0 : Fin 2) = (8 * ((i 0).val / 256) + 7) / 8 := (idx2 ⟨_, hlt⟩).1
  have e1 : win0_2.index ⟨8 * ((i 0).val / 256) + 7, hlt⟩ (1 : Fin 2) = 0 := (idx2 ⟨_, hlt⟩).2
  refine ⟨⟨8 * ((i 0).val / 256) + 7, hlt⟩, (flush0_2 _).mpr (show (8 * ((i 0).val / 256) + 7) % 8 = 7 by omega), ?_⟩
  rw [mem_blk]
  intro a
  match a with
  | ⟨0, _⟩ =>
    show win0_2.index ⟨8 * ((i 0).val / 256) + 7, hlt⟩ (0 : Fin 2) * 256 ≤ (i 0).val ∧ (i 0).val < win0_2.index ⟨8 * ((i 0).val / 256) + 7, hlt⟩ (0 : Fin 2) * 256 + 256
    rw [e0]; omega
  | ⟨1, _⟩ =>
    show win0_2.index ⟨8 * ((i 0).val / 256) + 7, hlt⟩ (1 : Fin 2) * 1 ≤ (i 1).val ∧ (i 1).val < win0_2.index ⟨8 * ((i 0).val / 256) + 7, hlt⟩ (1 : Fin 2) * 1 + 1
    rw [e1]; omega

/-- What a last column block writes back is its block of the loss column. -/
theorem flushed_eq (c : Dev nD) (hadm : Admissible (Xk m c) (Lk m c)) (t : Fin cfg0.N) (hf : (cfg0.win 2).flush t = true) :
    (dats m 0 c).flushed 2 t = ((cfg0.win 2).blk t).view.read (Elt Ideal) (lossCol m c) := by
  have h7 : t.val % 8 = 7 := (flush0_2 t).mp hf
  show (cfg0.win 2).cut (grid0.coords t) ((dats m 0 c).after 2 t) = _
  rw [after0_2]
  funext y
  rw [View.read_apply]
  -- an index of the [256, 1] block is a row number and the single column
  obtain ⟨r, z, rfl⟩ : ∃ (r : Fin 256) (z : Fin 1), y = ix2 r z := ⟨y 0, y 1, eq_ix2 y⟩
  obtain rfl : z = 0 := Subsingleton.elim _ _
  show (outsAt0 m c t.val t.isLt).1 (ix2 r (0 : Fin 1)) = lossCol m c (((cfg0.win 2).blk t).view.emb (ix2 r (0 : Fin 1)))
  rw [out_real m c hadm t h7 r]
  -- row r of block t is row 256 * (t / 8) + r of the array: block index times block size plus the row inside the block
  have he : ((((cfg0.win 2).blk t).view.emb (ix2 r (0 : Fin 1))) 0).val = 256 * (t.val / 8) + r.val := by
    show win0_2.index t (0 : Fin 2) * 256 + 1 * r.val = 256 * (t.val / 8) + r.val
    rw [(idx2 t).1]; omega
  show _ = ((rowLoss (realAt (Xk m c) ((((cfg0.win 2).blk t).view.emb (ix2 r (0 : Fin 1))) 0).val)
      (labAt (Lk m c) ((((cfg0.win 2).blk t).view.emb (ix2 r (0 : Fin 1))) 0).val) : ℝ) : EReal)
  rw [he]

/-- The four written-back blocks tile the array, so it ends holding the loss column. -/
theorem out_array (c : Dev nD) (hadm : Admissible (Xk m c) (Lk m c)) :
    (dats m 0 c).arrAt 2 cfg0.N = lossCol m c := by
  exact (dats m 0 c).arrAt_eq_of_cover 2 (lossCol m c) (fun t hf => flushed_eq m c hadm t hf) cover

end Cert.KernelIdeal.XentArray

end
-- ==== Proof.KFinal.lean ====
/-
  The kernel program's result.

  After the launch the host sums the [1024, 1] loss column from zero and divides by 1024: the mean loss.
-/
import proofs.«408263_j3899830304796_2_alg».proof.Proof.KArray
import Idealize.ShloMosaic.Lib.Pipeline.Value
import Idealize.ShloMosaic.Lib.StableHlo.Run
import Idealize.ShloMosaic.PureOps.Ideal.Laws

noncomputable section

open scoped BigOperators

namespace Cert.KernelIdeal.XentFinal

open Idealize.ShloMosaic Idealize.ShloMosaic.TcCoe Idealize.ShloMosaic.ValueIdx Idealize.SL.Sem
open Idealize.ShloMosaic.Pipeline (Dat)
open Cert.KernelIdeal Cert.KernelIdeal.Gen Cert.Xent
open Cert.KernelIdeal.XentBlocks Cert.KernelIdeal.XentPay Cert.KernelIdeal.XentPieces Cert.KernelIdeal.XentInduct Cert.KernelIdeal.XentOut Cert.KernelIdeal.XentArray

variable (m : (ℓ : Loc nD τ sig) → Buf (Elt Ideal) ℓ)

variable (ρ : Dev nD → PrngReg)

/-- The f32 pattern `0x44800000` denotes 1024. -/
private theorem ofBits_1024 : Ideal.ofBits .f32 0x44800000#32 = ((1024 : ℝ) : EReal) := by
  simp [Ideal.ofBits, Ideal.ieee, -EReal.coe_mul]
  norm_num

/-- The total of a [1024, 1] column whose entry in row `i` is the real `f i` is the sum of `f` over the rows. -/
private theorem sum_col (f : ℕ → ℝ) :
    ∑ y : S1024x1.Idx, (((f (y 0).val : ℝ)) : EReal) = (((∑ i ∈ Finset.range 1024, f i : ℝ)) : EReal) := by
  rw [ValueIdx.sum_idx2]
  simp only [Fin.sum_univ_one]
  rw [← sum_fin_eq_range 1024 f, coe_finset_sum]

/-- The host's tail — the sum of the column from zero, divided by 1024 — of the loss column is the mean loss. -/
theorem tail_value (c : Dev nD) (hadm : Admissible (Xk m c) (Lk m c)) :
    Pipeline.afterTail₀ cfgs (dats m) 0 (V0 m) [hostOps1] c main_v4 = fun _ => meanLoss (Xk m c) (Lk m c) := by
  -- the tail's four operations, applied to the region's exit contents
  unfold Pipeline.afterTail₀
  simp only [List.flatten_cons, List.flatten_nil, List.append_nil]
  show StableHlo.after hostOps1 _ (Proc.devRef .tc main_v4) = _
  after_results
  -- the summed array is the kernel's result array: the loss column
  rw [show Pipeline.withArrays (cfgs 0).spec c (V0 m c) (fun w => (dats m 0 c).arrAt w (cfgs 0).N) (Proc.devRef .tc main_v2)
      = lossCol m c from (Pipeline.withArrays_arr spec0 launch0.win.arr_inj c _ _ 2).trans (out_array m c hadm)]
  funext j
  show Ideal.div (Ideal.hostReduceAdd reducesTo_S1024x1_S_d0_1
      (fun y : S1024x1.Idx => (((rowLoss (realAt (Xk m c) (y 0).val) (labAt (Lk m c) (y 0).val) : ℝ)) : EReal))
      (Ideal.ofBits .f32 0x00000000#32) j)
    (Ideal.ofBits .f32 0x44800000#32) = meanLoss (Xk m c) (Lk m c)
  -- `0 + Σ` over the whole column, then the division by the real 1024 is the product with `1 / 1024`
  rw [Ideal.hostReduceAdd_total _ (fun b => b.elim0), Ideal.ofBits_zero_f32, zero_add, ofBits_1024,
    sum_col (fun i => rowLoss (realAt (Xk m c) i) (labAt (Lk m c) i)),
    Ideal.div_coe (by norm_num), ← EReal.coe_mul]
  unfold meanLoss
  congr 1
  ring

/-- The kernel program's run, read: the result at the mean loss, the arguments unchanged. -/
theorem run (hadm : ∀ c : Dev nD, Admissible (Xk m c) (Lk m c)) :
    θ_run defs (onTc (τ := τ) (main (F := Ideal))) ⟨m, fun _ => 0, ρ⟩ fun r => ∀ c : Dev nD,
      r.2.mem ((c.tc : Thread nD τ).loc main_v4) = (fun _ => meanLoss (Xk m c) (Lk m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  -- the result is no window's array: it ends as the tail leaves it; the first argument is window 0's array, which the
  -- region only reads; the second is touched by neither the region nor the tail
  (θ_run defs _ _).mono (fun _ h c =>
    ⟨((h c).2 main_v4 (Pipeline.mem_restRefs_of main_v4 (by decide) (by decide))).trans (tail_value m c (hadm c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.XentFinal

end
-- ==== Proof.RefValue.lean ====
/-
  The reference's result, read: for each row the negated log of the softmax entry at the row's label
  (the gather clamps its start index, and for a label word in `[-128000, 128000)` the clamp is the identity),
  summed over the rows and divided by 1024.  Row by row that is the log of the sum of exponentials minus the
  logit at the label.
-/
import proofs.«408263_j3899830304796_2_alg».proof.Proof.Gen.ReferenceIdeal.Run
import proofs.«408263_j3899830304796_2_alg».proof.Proof.Gen.ReferenceIdeal.Read
import proofs.«408263_j3899830304796_2_alg».proof.Proof.Online
import Idealize.ShloMosaic.Lib.ValueIdx
import Idealize.ShloMosaic.Lib.ValueLayout
import Idealize.ShloMosaic.Lib.StableHlo.Predicate

noncomputable section

open scoped BigOperators

namespace Cert.ReferenceIdeal.XentRef

open Idealize.ShloMosaic Idealize.ShloMosaic.ValueIdx Cert.ReferenceIdeal Cert.ReferenceIdeal.Gen Cert.ReferenceIdeal.Read Cert.Xent

/-- Every logit is the coercion of a real number. -/
theorem entry_real {X : FVec Ideal SX .f32} {Lb : IVec SL 32} (hadm : Admissible X Lb) (j : SX.Idx) :
    ∃ r : ℝ, X j = ((r : ℝ) : EReal) := by
  rw [eq_ix2 j]
  exact ⟨_, hadm.real (j 0) (j 1)⟩

/-- A maximum of coerced reals, folded from `⊥`, is `⊥` or a coerced real. -/
theorem fold_max_bot_or_real {ι : Type} (s : Finset ι) (f : ι → EReal) (hf : ∀ k, ∃ r : ℝ, f k = ((r : ℝ) : EReal)) :
    s.fold max (⊥ : EReal) f = ⊥ ∨ ∃ r : ℝ, s.fold max (⊥ : EReal) f = ((r : ℝ) : EReal) := by
  classical
  refine Finset.induction_on s (Or.inl Finset.fold_empty) ?_
  intro a t ha ih
  rw [Finset.fold_insert ha]
  obtain ⟨r, hr⟩ := hf a
  rcases ih with h | ⟨r', h⟩
  · exact Or.inr ⟨r, by rw [h, hr, max_bot_right]⟩
  · exact Or.inr ⟨max r r', by rw [h, hr]; exact (EReal.coe_strictMono.monotone.map_max).symm⟩

/-- Over a nonempty index set it is a coerced real. -/
theorem fold_max_real {ι : Type} (s : Finset ι) (hs : s.Nonempty) (f : ι → EReal) (hf : ∀ k, ∃ r : ℝ, f k = ((r : ℝ) : EReal)) :
    ∃ r : ℝ, s.fold max (⊥ : EReal) f = ((r : ℝ) : EReal) := by
  classical
  obtain ⟨a, ha⟩ := hs
  rw [← Finset.insert_erase ha, Finset.fold_insert (Finset.notMem_erase a s)]
  obtain ⟨r, hr⟩ := hf a
  rcases fold_max_bot_or_real (s.erase a) f hf with h | ⟨r', h⟩
  · exact ⟨r, by rw [h, hr, max_bot_right]⟩
  · exact ⟨max r r', by rw [h, hr]; exact (EReal.coe_strictMono.monotone.map_max).symm⟩

/-- The initial value of the row maximum is `⊥`. -/
theorem neg_inf_word : Ideal.ofBits .f32 0xFF800000#32 = (⊥ : EReal) := by
  simp [Ideal.ofBits, Ideal.ieee]

/-- Row `i`'s maximum is a real number. -/
theorem rowMax_real {X : FVec Ideal SX .f32} {Lb : IVec SL 32} (hadm : Admissible X Lb) (i : Fin 1024) :
    ∃ m : ℝ, val_main_v0 (F := Ideal) X (ix1 i) = ((m : ℝ) : EReal) := by
  unfold val_main_v0
  rw [Host.reduce_eq_fold_single FloatOps.maximumf X _ reducesTo_S1024x128000_S1024_d1 (by decide) h_S_]
  have h0 : (val_main_cst (F := Ideal)) (Shape.Idx.first h_S_) = (⊥ : EReal) := neg_inf_word
  rw [h0]
  exact fold_max_real Finset.univ ⟨⟨0, by decide⟩, Finset.mem_univ _⟩ _ (fun k => entry_real hadm _)

/-- The shifted exponential: entry `(i, q)` of the exponentials is `exp (x_iq - M_i)`. -/
theorem exp_at {X : FVec Ideal SX .f32} {Lb : IVec SL 32} (hadm : Admissible X Lb) (i : Fin 1024) (q : Fin 128000) (m : ℝ)
    (hm : val_main_v0 (F := Ideal) X (ix1 i) = ((m : ℝ) : EReal)) :
    val_main_v4 (F := Ideal) X (ix2 i q) = ((Real.exp (realAt X i.val q.val - m) : ℝ) : EReal) := by
  have e1 : idx_main_v1 (idx_main_v2 (ix2 i q)) = ix1 i := funext fun a => by match a with | ⟨0, _⟩ => rfl
  rw [val_main_v4_apply, val_main_v3_apply, val_main_v2_apply, val_main_v1_apply, e1, hm, hadm.real i q]
  rfl

/-- The row's sum of shifted exponentials. -/
theorem expSum_at {X : FVec Ideal SX .f32} {Lb : IVec SL 32} (hadm : Admissible X Lb) (i : Fin 1024) (m : ℝ)
    (hm : val_main_v0 (F := Ideal) X (ix1 i) = ((m : ℝ) : EReal)) :
    val_main_v5 (F := Ideal) X (ix1 i) = ((expSum (realAt X i.val) 128000 m : ℝ) : EReal) := by
  have e : ∀ k : Fin 128000, idx_main_v5 (ix1 i) k = ix2 i k := fun k =>
    funext fun a => by match a with | ⟨0, _⟩ => rfl | ⟨1, _⟩ => rfl
  have h0 : (val_main_cst_0 (F := Ideal)) (Shape.Idx.first h_S_) = 0 := Ideal.ofBits_zero_f32
  rw [val_main_v5_apply, h0, zero_add]
  unfold expSum
  rw [← sum_fin_eq_range 128000 (fun q => Real.exp (realAt X i.val q - m)), coe_finset_sum]
  refine Finset.sum_congr rfl fun k _ => ?_
  rw [e k]
  exact exp_at hadm i k m hm

/-- Entry `(i, q)` of the softmax. -/
theorem softmax_at {X : FVec Ideal SX .f32} {Lb : IVec SL 32} (hadm : Admissible X Lb) (i : Fin 1024) (q : Fin 128000) (m : ℝ)
    (hm : val_main_v0 (F := Ideal) X (ix1 i) = ((m : ℝ) : EReal)) :
    val_main_v8 (F := Ideal) X (ix2 i q)
      = ((Real.exp (realAt X i.val q.val - m) / expSum (realAt X i.val) 128000 m : ℝ) : EReal) := by
  have e1 : idx_main_v6 (idx_main_v7 (ix2 i q)) = ix1 i := funext fun a => by match a with | ⟨0, _⟩ => rfl
  rw [val_main_v8_apply, val_main_v7_apply, val_main_v6_apply, e1, exp_at hadm i q m hm, expSum_at hadm i m hm]
  show Ideal.div _ _ = _
  rw [Ideal.div_coe (expSum_pos _ 128000 (by norm_num) m).ne', ← EReal.coe_mul, mul_one_div]

/-- The wrap both programs apply to a word: a signed-negative word has 128000 added. -/
theorem select_wrap (w : BitVec 32) :
    Scalar.select (IntOp.cmpi .slt w 0#32) (IntOp.addi w 128000#32) w = wrapWord w := by
  unfold wrapWord Scalar.select IntOp.cmpi IntOp.addi
  by_cases h : w.toInt < 0
  · have hs : w.slt 0#32 = true := by simp [BitVec.slt, h]
    simp [hs, h]
  · have hs : w.slt 0#32 = false := by simp [BitVec.slt, h]
    simp [hs, h]

/-- A row number is not signed-negative, so its wrap is itself. -/
theorem select_row (i : Fin 1024) :
    Scalar.select (IntOp.cmpi .slt (BitVec.ofNat 32 i.val) 0#32) (IntOp.addi (BitVec.ofNat 32 i.val) 1024#32) (BitVec.ofNat 32 i.val)
      = BitVec.ofNat 32 i.val := by
  unfold Scalar.select IntOp.cmpi
  have h : ¬ (BitVec.ofNat 32 i.val).toInt < 0 := by
    rw [BitVec.toInt_eq_toNat_cond, BitVec.toNat_ofNat]
    have := i.isLt
    split <;> omega
  have hs : (BitVec.ofNat 32 i.val).slt 0#32 = false := by simp [BitVec.slt, h]
  simp [hs]

/-- The wrapped row numbers. -/
theorem rows_at (i : Fin 1024) : val_main_v14 (F := Ideal) (ix1 i) = BitVec.ofNat 32 i.val := by
  rw [val_main_v14_apply, val_main_v11_apply, val_main_v13_apply, val_main_v10_apply, val_main_v12_apply,
    val_main_c_apply, val_main_c_1_apply, val_main_v9_apply]
  exact select_row i

/-- The wrapped labels. -/
theorem labels_at (Lb : IVec SL 32) (i : Fin 1024) : val_main_v19 (F := Ideal) Lb (ix1 i) = wrapWord (Lb (ix1 i)) := by
  rw [val_main_v19_apply, val_main_v16_apply, val_main_v18_apply, val_main_v15_apply, val_main_v17_apply,
    val_main_c_2_apply, val_main_c_3_apply]
  exact select_wrap _

/-- Column 0 of the index array is the row number. -/
theorem index_at0 (Lb : IVec SL 32) (i : Fin 1024) :
    val_main_v22 (F := Ideal) Lb (ix2 i (0 : Fin 2)) = BitVec.ofNat 32 i.val := by
  have e1 : idx_main_v20 (ix2 i (0 : Fin 1)) = ix1 i := funext fun a => by match a with | ⟨0, _⟩ => rfl
  unfold val_main_v22
  rw [concatenate_pair_apply_left 1 _ _ concatenates_S1024x1_S1024x1_S1024x2_d1 (ix2 i (0 : Fin 2)) rfl (ix2 i (0 : Fin 1))
    (fun b => by match b with | ⟨0, _⟩ => rfl | ⟨1, _⟩ => rfl)]
  rw [val_main_v20_apply, e1, rows_at]

/-- Column 1 of the index array is the wrapped label. -/
theorem index_at1 (Lb : IVec SL 32) (i : Fin 1024) :
    val_main_v22 (F := Ideal) Lb (ix2 i (1 : Fin 2)) = wrapWord (Lb (ix1 i)) := by
  have e1 : idx_main_v21 (ix2 i (0 : Fin 1)) = ix1 i := funext fun a => by match a with | ⟨0, _⟩ => rfl
  unfold val_main_v22
  rw [concatenate_pair_apply_right 1 _ _ concatenates_S1024x1_S1024x1_S1024x2_d1 (ix2 i (1 : Fin 2)) rfl rfl (ix2 i (0 : Fin 1))
    (fun b hb => by match b with | ⟨0, _⟩ => rfl | ⟨1, _⟩ => exact absurd rfl hb) rfl]
  rw [val_main_v21_apply, e1, labels_at]

/-- The gather read at row `i`: the operand at (row component, column component) of row `i` of the index array, each read
    signed and clamped so that the one-element slice fits. -/
theorem gather_at {α : Type} (x : S1024x128000.Idx → α) (idx : IVec S1024x2 32) (i : Fin 1024) :
    Host.gather gather_S1024x128000_S1024x2_S1024_n_01_n_n_01_1_11 x idx (ix1 i)
      = x (ix2 (⟨min (idx (ix2 i (0 : Fin 2))).toInt.toNat 1023, by omega⟩ : Fin 1024)
            (⟨min (idx (ix2 i (1 : Fin 2))).toInt.toNat 127999, by omega⟩ : Fin 128000)) := by
  unfold Host.gather
  congr 1
  funext a
  refine Fin.ext ?_
  have hnb : ∀ a : Fin 2, a ∉ gather_S1024x128000_S1024x2_S1024_n_01_n_n_01_1_11.operandBatchingDims :=
    fun a => List.not_mem_nil
  have hnk : ∀ a : Fin 2, a ∉ gather_S1024x128000_S1024x2_S1024_n_01_n_n_01_1_11.sKept := fun a h =>
    ((GatherDims.mem_sKept _ _).mp h).1 (by
      show a ∈ ([0, 1] : List (Fin 2))
      match a with
      | ⟨0, _⟩ => exact List.mem_cons_self
      | ⟨1, _⟩ => exact List.mem_cons_of_mem _ List.mem_cons_self)
  match a with
  | ⟨0, _⟩ =>
    show gather_S1024x128000_S1024x2_S1024_n_01_n_n_01_1_11.start (ix1 i) idx 0
      + gather_S1024x128000_S1024x2_S1024_n_01_n_n_01_1_11.batchCoord (ix1 i) 0
      + gather_S1024x128000_S1024x2_S1024_n_01_n_n_01_1_11.offCoord (ix1 i) 0 = _
    rw [GatherDims.batchCoord_eq_zero _ _ _ (hnb 0), GatherDims.offCoord_eq_zero _ _ _ (hnk 0)]
    simp only [Nat.add_zero]
    unfold GatherDims.start
    have hm : (0 : Fin 2) ∈ gather_S1024x128000_S1024x2_S1024_n_01_n_n_01_1_11.startIndexMap := List.mem_cons_self
    rw [dif_pos hm]
    have hsi : gather_S1024x128000_S1024x2_S1024_n_01_n_n_01_1_11.siIdx (ix1 i)
        ⟨List.idxOf (0 : Fin 2) gather_S1024x128000_S1024x2_S1024_n_01_n_n_01_1_11.startIndexMap,
          List.idxOf_lt_length_iff.2 hm⟩ = ix2 i (0 : Fin 2) := by
      funext b; refine Fin.ext ?_
      match b with
      | ⟨0, _⟩ => rfl
      | ⟨1, _⟩ => rfl
    rw [hsi]
    rfl
  | ⟨1, _⟩ =>
    show gather_S1024x128000_S1024x2_S1024_n_01_n_n_01_1_11.start (ix1 i) idx 1
      + gather_S1024x128000_S1024x2_S1024_n_01_n_n_01_1_11.batchCoord (ix1 i) 1
      + gather_S1024x128000_S1024x2_S1024_n_01_n_n_01_1_11.offCoord (ix1 i) 1 = _
    rw [GatherDims.batchCoord_eq_zero _ _ _ (hnb 1), GatherDims.offCoord_eq_zero _ _ _ (hnk 1)]
    simp only [Nat.add_zero]
    unfold GatherDims.start
    have hm : (1 : Fin 2) ∈ gather_S1024x128000_S1024x2_S1024_n_01_n_n_01_1_11.startIndexMap :=
      List.mem_cons_of_mem _ List.mem_cons_self
    rw [dif_pos hm]
    have hsi : gather_S1024x128000_S1024x2_S1024_n_01_n_n_01_1_11.siIdx (ix1 i)
        ⟨List.idxOf (1 : Fin 2) gather_S1024x128000_S1024x2_S1024_n_01_n_n_01_1_11.startIndexMap,
          List.idxOf_lt_length_iff.2 hm⟩ = ix2 i (1 : Fin 2) := by
      funext b; refine Fin.ext ?_
      match b with
      | ⟨0, _⟩ => rfl
      | ⟨1, _⟩ => rfl
    rw [hsi]
    rfl

/-- A row's label as the column the gather reads. -/
theorem labAt_fin (Lb : IVec SL 32) (i : Fin 1024) : labAt Lb i.val = (wrapWord (Lb (ix1 i))).toNat := by
  unfold labAt
  rw [dif_pos i.isLt]

/-- The gathered softmax entry: row `i` at its label's column (both clamps are the identity). -/
theorem gathered_at {X : FVec Ideal SX .f32} {Lb : IVec SL 32} (hadm : Admissible X Lb) (i : Fin 1024) :
    val_main_v23 (F := Ideal) X Lb (ix1 i)
      = val_main_v8 (F := Ideal) X (ix2 i (⟨labAt Lb i.val, labAt_lt hadm i.val⟩ : Fin 128000)) := by
  unfold val_main_v23
  rw [gather_at]
  congr 1
  have hl := labAt_lt hadm i.val
  rw [labAt_fin] at hl
  have hi := i.isLt
  congr 1
  · refine Fin.ext ?_
    show min (val_main_v22 (F := Ideal) Lb (ix2 i (0 : Fin 2))).toInt.toNat 1023 = i.val
    rw [index_at0, BitVec.toInt_eq_toNat_cond, BitVec.toNat_ofNat]
    split <;> omega
  · refine Fin.ext ?_
    show min (val_main_v22 (F := Ideal) Lb (ix2 i (1 : Fin 2))).toInt.toNat 127999 = labAt Lb i.val
    rw [index_at1, labAt_fin, BitVec.toInt_eq_toNat_cond]
    split <;> omega

/-- Row `i`'s negated log of the gathered entry is the row's cross-entropy. -/
theorem rowLoss_at {X : FVec Ideal SX .f32} {Lb : IVec SL 32} (hadm : Admissible X Lb) (i : Fin 1024) :
    val_main_v25 (F := Ideal) X Lb (ix1 i) = ((rowLoss (realAt X i.val) (labAt Lb i.val) : ℝ) : EReal) := by
  obtain ⟨m, hm⟩ := rowMax_real hadm i
  rw [val_main_v25_apply, val_main_v24_apply, gathered_at hadm i, softmax_at hadm i _ m hm]
  have hpos : 0 < Real.exp (realAt X i.val (labAt Lb i.val) - m) / expSum (realAt X i.val) 128000 m :=
    div_pos (Real.exp_pos _) (expSum_pos _ 128000 (by norm_num) m)
  rw [Ideal.hostNegf_def, Ideal.negf_def, Ideal.hostUnary_log_def, Ideal.log_coe, if_neg (not_le.mpr hpos), ← EReal.coe_neg,
    close_quotient]

/-- A rank-1 index set of extent 1024 is `Fin 1024`. -/
def rowEquiv : S1024.Idx ≃ Fin 1024 where
  toFun j := j 0
  invFun k := ix1 k
  left_inv j := (eq_ix1 j).symm
  right_inv _ := rfl

/-- The word of the final divisor is 1024. -/
theorem word_1024 : Ideal.ofBits .f32 0x44800000#32 = ((1024 : ℝ) : EReal) := by
  simp [Ideal.ofBits, Ideal.ieee]
  rw [← EReal.coe_mul]
  norm_num

/-- The reference's result is the mean cross-entropy of the real rows at the wrapped labels. -/
theorem result_eq (X : FVec Ideal SX .f32) (Lb : IVec SL 32) (hadm : Admissible X Lb) :
    val_main_v27 (F := Ideal) X Lb = fun _ => meanLoss X Lb := by
  funext j
  have h0 : (val_main_cst_4 (F := Ideal)) (Shape.Idx.first h_S_) = 0 := Ideal.ofBits_zero_f32
  have hsum : (∑ j : S1024.Idx, val_main_v25 (F := Ideal) X Lb j)
      = (((∑ i ∈ Finset.range 1024, rowLoss (realAt X i) (labAt Lb i) : ℝ)) : EReal) := by
    rw [← Equiv.sum_comp rowEquiv.symm (val_main_v25 (F := Ideal) X Lb),
      ← sum_fin_eq_range 1024 (fun i => rowLoss (realAt X i) (labAt Lb i)), coe_finset_sum]
    exact Finset.sum_congr rfl fun k _ => rowLoss_at hadm k
  rw [val_main_v27_apply, val_main_v26_apply, h0, zero_add, hsum, val_main_cst_5_apply]
  show Ideal.div _ (Ideal.ofBits .f32 0x44800000#32) = _
  rw [word_1024, Ideal.div_coe (by norm_num : (1024 : ℝ) ≠ 0), ← EReal.coe_mul, mul_one_div]
  rfl

end Cert.ReferenceIdeal.XentRef

end
-- ==== Proof.lean ====
/-
  Softmax cross-entropy with the softmax carried as a running maximum and a running sum, against the textbook form.

  The kernel streams the [1024, 128000] logits through a (4, 8) grid of [256, 16000] blocks.  Along a row block's
  eight column blocks it carries, per row, a running maximum `s` (started from a large negative finite number) and the
  running sum of `exp (x q - s)`, rescaling the sum by `exp (old s - new s)` whenever the maximum moves; after the last
  column block it writes `s - x l + log (sum)`, where `x l` is the row's logit at its label, gathered on the host before
  the launch.  Over the reals `exp (s - s') * ∑ exp (x q - s) = ∑ exp (x q - s')`, so the carried sum is the sum at the
  current shift whatever the shifts were, and `s + log (∑ exp (x q - s)) = log (∑ exp (x q))` for every real `s`: the
  written value is `log (∑ exp (x q)) - x l`, and the starting value of the maximum never matters.  The reference
  computes `-log (exp (x l - M) / ∑ exp (x q - M))` with `M` the row's maximum, which is the same number.  Both then
  average the 1024 rows.

  All of this is arithmetic of real numbers, which is where the finiteness of the logits is used (the laws of `exp`
  and the distributive law fail at the infinities).  The label words are restricted to `[-128000, 128000)`: both
  programs wrap a negative word by adding 128000, and outside that range the reference's gather clamps its index while the
  kernel's host gather fills with a not-a-number pattern, so the two differ there.

  Frames: the kernel's and its idealization's are the generated frame runs; the reference's is its generated run with
  the result dropped.  The idealization rewrote nothing, so `preserves` is trivial.
-/
import proofs.«408263_j3899830304796_2_alg».proof.Defs
import proofs.«408263_j3899830304796_2_alg».proof.Proof.Gen.Kernel
import proofs.«408263_j3899830304796_2_alg».proof.Proof.Gen.Kernel.Skeleton
import proofs.«408263_j3899830304796_2_alg».proof.Proof.Gen.Kernel.Launch
import proofs.«408263_j3899830304796_2_alg».proof.Proof.Gen.Kernel.Points
import proofs.«408263_j3899830304796_2_alg».proof.Proof.Gen.Kernel.Frame
import proofs.«408263_j3899830304796_2_alg».proof.Proof.Gen.KernelIdeal
import proofs.«408263_j3899830304796_2_alg».proof.Proof.Gen.KernelIdeal.Skeleton
import proofs.«408263_j3899830304796_2_alg».proof.Proof.Gen.KernelIdeal.Launch
import proofs.«408263_j3899830304796_2_alg».proof.Proof.Gen.KernelIdeal.Points
import proofs.«408263_j3899830304796_2_alg».proof.Proof.Gen.KernelIdeal.Frame
import proofs.«408263_j3899830304796_2_alg».proof.Proof.Gen.ReferenceIdeal
import proofs.«408263_j3899830304796_2_alg».proof.Proof.Gen.ReferenceIdeal.Run
import proofs.«408263_j3899830304796_2_alg».proof.Proof.Gen.ReferenceIdeal.Read
import proofs.«408263_j3899830304796_2_alg».proof.Proof.Gen.Pre_finite_inputs
import proofs.«408263_j3899830304796_2_alg».proof.Proof.PreDecode
import proofs.«408263_j3899830304796_2_alg».proof.Proof.KFinal
import proofs.«408263_j3899830304796_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean over the rows of `log (∑ exp (x q)) - x l`. -/
theorem algebraic : Cert.algebraic_KernelIdeal_ReferenceIdeal := by
  intro m ρ m' ρ' hpre hagree
  have hadm : ∀ c : Dev Cert.KernelIdeal.nD,
      Cert.Xent.Admissible (Cert.KernelIdeal.XentBlocks.Xk m c) (Cert.KernelIdeal.XentBlocks.Lk m c) :=
    fun c => Cert.Xent.admissible_of_pre _ _ (hpre c)
  refine ⟨fun c => fun _ => Cert.Xent.meanLoss (Cert.KernelIdeal.XentBlocks.Xk m c) (Cert.KernelIdeal.XentBlocks.Lk m c),
    Cert.KernelIdeal.XentFinal.run m ρ hadm, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  exact Cert.ReferenceIdeal.XentRef.result_eq _ _ (hadm c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
